-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x19x512x1024 : Shape := ⟨4, ![8, 19, 512, 1024]⟩
abbrev S8x512x1024 : Shape := ⟨3, ![8, 512, 1024]⟩
abbrev S_ : Shape := ⟨0, ![]⟩

class Facts : Prop where
  bcast_S_S8x19x512x1024 : S_.BroadcastsInDim S8x19x512x1024 (![] : Fin 0 → Fin S8x19x512x1024.rank)
  reducesTo_S8x19x512x1024_S_d0_1_2_3 : S8x19x512x1024.ReducesTo [0, 1, 2, 3] S_
  h_S_ : 0 < S_.numel
  bcast_S_S8x512x1024 : S_.BroadcastsInDim S8x512x1024 (![] : Fin 0 → Fin S8x512x1024.rank)
  reducesTo_S8x512x1024_S_d0_1_2 : S8x512x1024.ReducesTo [0, 1, 2] S_

variable [Facts]

def fn {F : FTy → Type} [FloatOps F] (main_arg0 : FVec F S8x19x512x1024 .f32) (main_arg1 : IVec S8x512x1024 32) : IVec S_ 1 :=
  let main_v0 : FVec F S8x19x512x1024 .f32 := Host.absf main_arg0
  let main_cst : FVec F S_ .f32 := constant S_ .f32 0x7F800000#32
  let main_v1 : FVec F S8x19x512x1024 .f32 := broadcastInDim S8x19x512x1024 ![] bcast_S_S8x19x512x1024 main_cst
  let main_v2 : IVec S8x19x512x1024 1 := cmpf .olt main_v0 main_v1
  let main_c : IVec S_ 1 := constantI S_ 1 1#1
  let main_v3 : IVec S_ 1 := (fun x v => Host.reduce IntOp.andi x v reducesTo_S8x19x512x1024_S_d0_1_2_3 h_S_) main_v2 main_c
  let main_c_0 : IVec S_ 32 := constantI S_ 32 0#32
  let main_v4 : IVec S8x512x1024 32 := broadcastInDim S8x512x1024 ![] bcast_S_S8x512x1024 main_c_0
  let main_v5 : IVec S8x512x1024 1 := cmpi .sge main_arg1 main_v4
  let main_c_1 : IVec S_ 1 := constantI S_ 1 1#1
  let main_v6 : IVec S_ 1 := (fun x v => Host.reduce IntOp.andi x v reducesTo_S8x512x1024_S_d0_1_2 h_S_) main_v5 main_c_1
  let main_v7 : IVec S_ 1 := andi main_v3 main_v6
  let main_c_2 : IVec S_ 32 := constantI S_ 32 19#32
  let main_v8 : IVec S8x512x1024 32 := broadcastInDim S8x512x1024 ![] bcast_S_S8x512x1024 main_c_2
  let main_v9 : IVec S8x512x1024 1 := cmpi .slt main_arg1 main_v8
  let main_c_3 : IVec S_ 1 := constantI S_ 1 1#1
  let main_v10 : IVec S_ 1 := (fun x v => Host.reduce IntOp.andi x v reducesTo_S8x512x1024_S_d0_1_2 h_S_) main_v9 main_c_3
  let main_v11 : IVec S_ 1 := andi main_v7 main_v10
  main_v11
-- ==== Kernel.lean ====
abbrev S8x19x512x1024 : Shape := ⟨4, ![8, 19, 512, 1024]⟩
abbrev S8x512x1024 : Shape := ⟨3, ![8, 512, 1024]⟩
abbrev S8x8x128 : Shape := ⟨3, ![8, 8, 128]⟩
abbrev S1x19x128x1024 : Shape := ⟨4, ![1, 19, 128, 1024]⟩
abbrev S1x128x1024 : Shape := ⟨3, ![1, 128, 1024]⟩
abbrev S1x8x128 : Shape := ⟨3, ![1, 8, 128]⟩
abbrev S8x128 : Shape := ⟨2, ![8, 128]⟩
abbrev S128x1024 : Shape := ⟨2, ![128, 1024]⟩
abbrev S1x1x128x1024 : Shape := ⟨4, ![1, 1, 128, 1024]⟩
abbrev S128 : Shape := ⟨1, ![128]⟩
abbrev S128x1 : Shape := ⟨2, ![128, 1]⟩
abbrev S1 : Shape := ⟨1, ![1]⟩
abbrev S1x1 : Shape := ⟨2, ![1, 1]⟩
abbrev S8x1x19 : Shape := ⟨3, ![8, 1, 19]⟩
abbrev S8x19 : Shape := ⟨2, ![8, 19]⟩
abbrev S_ : Shape := ⟨0, ![]⟩
abbrev S19 : Shape := ⟨1, ![19]⟩

abbrev nBuf : Space → Nat
  | .hbm => 31
  | .vmem => 6
  | .smem => 0
  | _ => 0

abbrev bufTy : (tb : Table) → Fin (tcTables nBuf tb) → BufTy
  | .hbm, ⟨0, _⟩ => ⟨S8x19x512x1024, .f32⟩
  | .hbm, ⟨1, _⟩ => ⟨S8x512x1024, .i32⟩
  | .hbm, ⟨2, _⟩ => ⟨S8x8x128, .f32⟩
  | .hbm, ⟨3, _⟩ => ⟨S8x1x19, .f32⟩
  | .hbm, ⟨4, _⟩ => ⟨S8x19, .f32⟩
  | .hbm, ⟨5, _⟩ => ⟨S_, .f32⟩
  | .hbm, ⟨6, _⟩ => ⟨S19, .f32⟩
  | .hbm, ⟨7, _⟩ => ⟨S8x1x19, .f32⟩
  | .hbm, ⟨8, _⟩ => ⟨S8x19, .f32⟩
  | .hbm, ⟨9, _⟩ => ⟨S_, .f32⟩
  | .hbm, ⟨10, _⟩ => ⟨S19, .f32⟩
  | .hbm, ⟨11, _⟩ => ⟨S_, .f32⟩
  | .hbm, ⟨12, _⟩ => ⟨S19, .f32⟩
  | .hbm, ⟨13, _⟩ => ⟨S19, .i1⟩
  | .hbm, ⟨14, _⟩ => ⟨S_, .f32⟩
  | .hbm, ⟨15, _⟩ => ⟨S19, .f32⟩
  | .hbm, ⟨16, _⟩ => ⟨S19, .f32⟩
  | .hbm, ⟨17, _⟩ => ⟨S_, .f32⟩
  | .hbm, ⟨18, _⟩ => ⟨S19, .f32⟩
  | .hbm, ⟨19, _⟩ => ⟨S19, .f32⟩
  | .hbm, ⟨20, _⟩ => ⟨S_, .f32⟩
  | .hbm, ⟨21, _⟩ => ⟨S_, .f32⟩
  | .hbm, ⟨22, _⟩ => ⟨S19, .f32⟩
  | .hbm, ⟨23, _⟩ => ⟨S19, .f32⟩
  | .hbm, ⟨24, _⟩ => ⟨S19, .f32⟩
  | .hbm, ⟨25, _⟩ => ⟨S_, .f32⟩
  | .hbm, ⟨26, _⟩ => ⟨S_, .f32⟩
  | .hbm, ⟨27, _⟩ => ⟨S19, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1x19x128x1024, .f32⟩
  | .local _ .vmem, ⟨1, _⟩ => ⟨S1x19x128x1024, .f32⟩
  | .local _ .vmem, ⟨2, _⟩ => ⟨S1x128x1024, .i32⟩
  | .local _ .vmem, ⟨3, _⟩ => ⟨S1x128x1024, .i32⟩
  | .local _ .vmem, ⟨4, _⟩ => ⟨S1x8x128, .f32⟩
  | .local _ .vmem, ⟨5, _⟩ => ⟨S1x8x128, .f32⟩
  | _, _ => ⟨S8x19x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x19x128x1024_S1x1x128x1024_0_0_0_0 : ∀ a, (![0, 0, 0, 0] : Fin 4 → Nat) a + S1x1x128x1024.size a ≤ S1x19x128x1024.size a
  h_S1x1x128x1024 : 0 < S1x1x128x1024.numel
  shapeCasts_S1x1x128x1024_S128x1024 : S1x1x128x1024.ShapeCasts S128x1024
  inb_S1x19x128x1024_S1x1x128x1024_0_1_0_0 : ∀ a, (![0, 1, 0, 0] : Fin 4 → Nat) a + S1x1x128x1024.size a ≤ S1x19x128x1024.size a
  inb_S1x19x128x1024_S1x1x128x1024_0_2_0_0 : ∀ a, (![0, 2, 0, 0] : Fin 4 → Nat) a + S1x1x128x1024.size a ≤ S1x19x128x1024.size a
  inb_S1x19x128x1024_S1x1x128x1024_0_3_0_0 : ∀ a, (![0, 3, 0, 0] : Fin 4 → Nat) a + S1x1x128x1024.size a ≤ S1x19x128x1024.size a
  inb_S1x19x128x1024_S1x1x128x1024_0_4_0_0 : ∀ a, (![0, 4, 0, 0] : Fin 4 → Nat) a + S1x1x128x1024.size a ≤ S1x19x128x1024.size a
  inb_S1x19x128x1024_S1x1x128x1024_0_5_0_0 : ∀ a, (![0, 5, 0, 0] : Fin 4 → Nat) a + S1x1x128x1024.size a ≤ S1x19x128x1024.size a
  inb_S1x19x128x1024_S1x1x128x1024_0_6_0_0 : ∀ a, (![0, 6, 0, 0] : Fin 4 → Nat) a + S1x1x128x1024.size a ≤ S1x19x128x1024.size a
  inb_S1x19x128x1024_S1x1x128x1024_0_7_0_0 : ∀ a, (![0, 7, 0, 0] : Fin 4 → Nat) a + S1x1x128x1024.size a ≤ S1x19x128x1024.size a
  inb_S1x19x128x1024_S1x1x128x1024_0_8_0_0 : ∀ a, (![0, 8, 0, 0] : Fin 4 → Nat) a + S1x1x128x1024.size a ≤ S1x19x128x1024.size a
  inb_S1x19x128x1024_S1x1x128x1024_0_9_0_0 : ∀ a, (![0, 9, 0, 0] : Fin 4 → Nat) a + S1x1x128x1024.size a ≤ S1x19x128x1024.size a
  inb_S1x19x128x1024_S1x1x128x1024_0_10_0_0 : ∀ a, (![0, 10, 0, 0] : Fin 4 → Nat) a + S1x1x128x1024.size a ≤ S1x19x128x1024.size a
  inb_S1x19x128x1024_S1x1x128x1024_0_11_0_0 : ∀ a, (![0, 11, 0, 0] : Fin 4 → Nat) a + S1x1x128x1024.size a ≤ S1x19x128x1024.size a
  inb_S1x19x128x1024_S1x1x128x1024_0_12_0_0 : ∀ a, (![0, 12, 0, 0] : Fin 4 → Nat) a + S1x1x128x1024.size a ≤ S1x19x128x1024.size a
  inb_S1x19x128x1024_S1x1x128x1024_0_13_0_0 : ∀ a, (![0, 13, 0, 0] : Fin 4 → Nat) a + S1x1x128x1024.size a ≤ S1x19x128x1024.size a
  inb_S1x19x128x1024_S1x1x128x1024_0_14_0_0 : ∀ a, (![0, 14, 0, 0] : Fin 4 → Nat) a + S1x1x128x1024.size a ≤ S1x19x128x1024.size a
  inb_S1x19x128x1024_S1x1x128x1024_0_15_0_0 : ∀ a, (![0, 15, 0, 0] : Fin 4 → Nat) a + S1x1x128x1024.size a ≤ S1x19x128x1024.size a
  inb_S1x19x128x1024_S1x1x128x1024_0_16_0_0 : ∀ a, (![0, 16, 0, 0] : Fin 4 → Nat) a + S1x1x128x1024.size a ≤ S1x19x128x1024.size a
  inb_S1x19x128x1024_S1x1x128x1024_0_17_0_0 : ∀ a, (![0, 17, 0, 0] : Fin 4 → Nat) a + S1x1x128x1024.size a ≤ S1x19x128x1024.size a
  inb_S1x19x128x1024_S1x1x128x1024_0_18_0_0 : ∀ a, (![0, 18, 0, 0] : Fin 4 → Nat) a + S1x1x128x1024.size a ≤ S1x19x128x1024.size a
  iota_S8x128_d0_w32 : S8x128.Iotas .tc 32 [0]
  iota_S8x128_d1_w32 : S8x128.Iotas .tc 32 [1]
  natLt_1_32 : 1 < 32
  reduces_S128x1024_S128 : S128x1024.Reduces [1] S128
  shapeCasts_S128_S128x1 : S128.ShapeCasts S128x1
  reduces_S128x1_S1 : S128x1.Reduces [0] S1
  shapeCasts_S1_S1x1 : S1.ShapeCasts S1x1
  broadcasts_S1x1_S8x128 : S1x1.Broadcasts S8x128
  slices_S8x8x128_S8x1x19_0_0_0 : S8x8x128.Slices ![0, 0, 0] S8x1x19
  shapeCasts_S8x1x19_S8x19 : S8x1x19.ShapeCasts S8x19
  reducesTo_S8x19_S19_d0 : S8x19.ReducesTo [0] S19
  h_S_ : 0 < S_.numel
  slices_S8x8x128_S8x1x19_0_1_0 : S8x8x128.Slices ![0, 1, 0] S8x1x19
  bcast_S_S19 : S_.BroadcastsInDim S19 (![] : Fin 0 → Fin S19.rank)
  reducesTo_S19_S_d0 : S19.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x128x1024.size a ≤ S8x19x512x1024.size a
  hwx0_0 : ∀ i : grid0.Coords, EltTy.bits .f32 = 32 ∨ (Rect.block (s := S8x19x512x1024) S1x19x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1024.size a ≤ S8x512x1024.size a
  hwx0_1 : ∀ i : grid0.Coords, EltTy.bits .i32 = 32 ∨ (Rect.block (s := S8x512x1024) S1x128x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S8x8x128.size a
  hwx0_2 : ∀ i : grid0.Coords, EltTy.bits .f32 = 32 ∨ (Rect.block (s := S8x8x128) S1x8x128.size (cc0_transform_2 i) (hinb0_2 i)).WholeWords (EltTy.packing .f32)

variable [Facts₀]

abbrev win0_0 : Pipeline.Window sig grid0 :=
  Pipeline.Window.ofSpec (Memref.whole main_arg0) S1x19x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x19x512x1024 : Shape := ⟨4, ![8, 19, 512, 1024]⟩
abbrev S8x512x1024 : Shape := ⟨3, ![8, 512, 1024]⟩
abbrev S_ : Shape := ⟨0, ![]⟩
abbrev S8x1x512x1024 : Shape := ⟨4, ![8, 1, 512, 1024]⟩
abbrev S4194304 : Shape := ⟨1, ![4194304]⟩
abbrev S19 : Shape := ⟨1, ![19]⟩
abbrev S4194304x1 : Shape := ⟨2, ![4194304, 1]⟩
abbrev S8x512x1024x19 : Shape := ⟨4, ![8, 512, 1024, 19]⟩
abbrev S4194304x19 : Shape := ⟨2, ![4194304, 19]⟩
abbrev S4194304x1x1 : Shape := ⟨3, ![4194304, 1, 1]⟩
abbrev S1 : Shape := ⟨1, ![1]⟩
abbrev S1x1x1 : Shape := ⟨3, ![1, 1, 1]⟩

abbrev nBuf : Space → Nat
  | .hbm => 86
  | .vmem => 0
  | .smem => 0
  | _ => 0

abbrev bufTy : (tb : Table) → Fin (tcTables nBuf tb) → BufTy
  | .hbm, ⟨0, _⟩ => ⟨S8x19x512x1024, .f32⟩
  | .hbm, ⟨1, _⟩ => ⟨S8x512x1024, .i32⟩
  | .hbm, ⟨2, _⟩ => ⟨S_, .f32⟩
  | .hbm, ⟨3, _⟩ => ⟨S8x512x1024, .f32⟩
  | .hbm, ⟨4, _⟩ => ⟨S_, .f32⟩
  | .hbm, ⟨5, _⟩ => ⟨S8x512x1024, .f32⟩
  | .hbm, ⟨6, _⟩ => ⟨S8x512x1024, .f32⟩
  | .hbm, ⟨7, _⟩ => ⟨S8x1x512x1024, .f32⟩
  | .hbm, ⟨8, _⟩ => ⟨S8x19x512x1024, .f32⟩
  | .hbm, ⟨9, _⟩ => ⟨S8x19x512x1024, .f32⟩
  | .hbm, ⟨10, _⟩ => ⟨S8x19x512x1024, .f32⟩
  | .hbm, ⟨11, _⟩ => ⟨S_, .f32⟩
  | .hbm, ⟨12, _⟩ => ⟨S8x512x1024, .f32⟩
  | .hbm, ⟨13, _⟩ => ⟨S8x1x512x1024, .f32⟩
  | .hbm, ⟨14, _⟩ => ⟨S8x1x512x1024, .f32⟩
  | .hbm, ⟨15, _⟩ => ⟨S8x19x512x1024, .f32⟩
  | .hbm, ⟨16, _⟩ => ⟨S8x19x512x1024, .f32⟩
  | .hbm, ⟨17, _⟩ => ⟨S4194304, .i32⟩
  | .hbm, ⟨18, _⟩ => ⟨S_, .f32⟩
  | .hbm, ⟨19, _⟩ => ⟨S19, .f32⟩
  | .hbm, ⟨20, _⟩ => ⟨S_, .i32⟩
  | .hbm, ⟨21, _⟩ => ⟨S4194304, .i32⟩
  | .hbm, ⟨22, _⟩ => ⟨S4194304, .i1⟩
  | .hbm, ⟨23, _⟩ => ⟨S_, .i32⟩
  | .hbm, ⟨24, _⟩ => ⟨S4194304, .i32⟩
  | .hbm, ⟨25, _⟩ => ⟨S4194304, .i32⟩
  | .hbm, ⟨26, _⟩ => ⟨S4194304, .i32⟩
  | .hbm, ⟨27, _⟩ => ⟨S4194304x1, .i32⟩
  | .hbm, ⟨28, _⟩ => ⟨S_, .f32⟩
  | .hbm, ⟨29, _⟩ => ⟨S4194304, .f32⟩
  | .hbm, ⟨30, _⟩ => ⟨S19, .f32⟩
  | .hbm, ⟨31, _⟩ => ⟨S_, .f32⟩
  | .hbm, ⟨32, _⟩ => ⟨S19, .f32⟩
  | .hbm, ⟨33, _⟩ => ⟨S19, .i1⟩
  | .hbm, ⟨34, _⟩ => ⟨S_, .f32⟩
  | .hbm, ⟨35, _⟩ => ⟨S19, .f32⟩
  | .hbm, ⟨36, _⟩ => ⟨S19, .f32⟩
  | .hbm, ⟨37, _⟩ => ⟨S_, .f32⟩
  | .hbm, ⟨38, _⟩ => ⟨S19, .f32⟩
  | .hbm, ⟨39, _⟩ => ⟨S19, .f32⟩
  | .hbm, ⟨40, _⟩ => ⟨S_, .f32⟩
  | .hbm, ⟨41, _⟩ => ⟨S_, .f32⟩
  | .hbm, ⟨42, _⟩ => ⟨S19, .f32⟩
  | .hbm, ⟨43, _⟩ => ⟨S19, .f32⟩
  | .hbm, ⟨44, _⟩ => ⟨S_, .i32⟩
  | .hbm, ⟨45, _⟩ => ⟨S4194304, .i32⟩
  | .hbm, ⟨46, _⟩ => ⟨S4194304, .i1⟩
  | .hbm, ⟨47, _⟩ => ⟨S_, .i32⟩
  | .hbm, ⟨48, _⟩ => ⟨S4194304, .i32⟩
  | .hbm, ⟨49, _⟩ => ⟨S4194304, .i32⟩
  | .hbm, ⟨50, _⟩ => ⟨S4194304, .i32⟩
  | .hbm, ⟨51, _⟩ => ⟨S4194304x1, .i32⟩
  | .hbm, ⟨52, _⟩ => ⟨S4194304, .f32⟩
  | .hbm, ⟨53, _⟩ => ⟨S8x512x1024x19, .f32⟩
  | .hbm, ⟨54, _⟩ => ⟨S4194304x19, .f32⟩
  | .hbm, ⟨55, _⟩ => ⟨S4194304x1, .i32⟩
  | .hbm, ⟨56, _⟩ => ⟨S_, .i32⟩
  | .hbm, ⟨57, _⟩ => ⟨S4194304x1, .i32⟩
  | .hbm, ⟨58, _⟩ => ⟨S4194304x1, .i1⟩
  | .hbm, ⟨59, _⟩ => ⟨S_, .i32⟩
  | .hbm, ⟨60, _⟩ => ⟨S4194304x1, .i32⟩
  | .hbm, ⟨61, _⟩ => ⟨S4194304x1, .i32⟩
  | .hbm, ⟨62, _⟩ => ⟨S4194304x1, .i32⟩
  | .hbm, ⟨63, _⟩ => ⟨S4194304x1x1, .i32⟩
  | .hbm, ⟨64, _⟩ => ⟨S1, .i32⟩
  | .hbm, ⟨65, _⟩ => ⟨S_, .i32⟩
  | .hbm, ⟨66, _⟩ => ⟨S4194304x1x1, .i32⟩
  | .hbm, ⟨67, _⟩ => ⟨S4194304x1x1, .i1⟩
  | .hbm, ⟨68, _⟩ => ⟨S1x1x1, .i32⟩
  | .hbm, ⟨69, _⟩ => ⟨S4194304x1x1, .i32⟩
  | .hbm, ⟨70, _⟩ => ⟨S4194304x1x1, .i1⟩
  | .hbm, ⟨71, _⟩ => ⟨S4194304x1x1, .i1⟩
  | .hbm, ⟨72, _⟩ => ⟨S_, .i1⟩
  | .hbm, ⟨73, _⟩ => ⟨S4194304x1, .i1⟩
  | .hbm, ⟨74, _⟩ => ⟨S4194304x1, .f32⟩
  | .hbm, ⟨75, _⟩ => ⟨S_, .f32⟩
  | .hbm, ⟨76, _⟩ => ⟨S4194304x1, .f32⟩
  | .hbm, ⟨77, _⟩ => ⟨S4194304x1, .f32⟩
  | .hbm, ⟨78, _⟩ => ⟨S4194304, .f32⟩
  | .hbm, ⟨79, _⟩ => ⟨S4194304, .f32⟩
  | .hbm, ⟨80, _⟩ => ⟨S4194304, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S8x19x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_v14 : Ref sig .tc := ⟨.hbm, 36, rfl⟩
abbrev main_cst_4 : Ref sig .tc := ⟨.hbm, 37, rfl⟩
abbrev main_v15 : Ref sig .tc := ⟨.hbm, 38, rfl⟩
abbrev main_v16 : Ref sig .tc := ⟨.hbm, 39, rfl⟩
abbrev main_cst_5 : Ref sig .tc := ⟨.hbm, 40, rfl⟩
abbrev main_call1_v0 : Ref sig .tc := ⟨.hbm, 41, rfl⟩
abbrev main_call1_v1 : Ref sig .tc := ⟨.hbm, 42, rfl⟩
abbrev main_v17 : Ref sig .tc := ⟨.hbm, 43, rfl⟩
abbrev main_c_6 : Ref sig .tc := ⟨.hbm, 44, rfl⟩
abbrev main_v18 : Ref sig .tc := ⟨.hbm, 45, rfl⟩
abbrev main_v19 : Ref sig .tc := ⟨.hbm, 46, rfl⟩
abbrev main_c_7 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_cst : Ref sig .tc := ⟨.hbm, 75, rfl⟩
abbrev main_call2_v14 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_cst_8 : Ref sig .tc := ⟨.hbm, 81, rfl⟩
abbrev main_v32 : Ref sig .tc := ⟨.hbm, 82, rfl⟩
abbrev main_cst_9 : Ref sig .tc := ⟨.hbm, 83, rfl⟩
abbrev main_v33 : Ref sig .tc := ⟨.hbm, 84, rfl⟩
abbrev main_v34 : Ref sig .tc := ⟨.hbm, 85, rfl⟩

abbrev nD : Nat := 1
abbrev τ : Topo := Topo.v7x

variable {F : FTy → Type} [FloatOps F]

class Facts₀ : Prop where
  reducesTo_S8x19x512x1024_S8x512x1024_d1 : S8x19x512x1024.ReducesTo [1] S8x512x1024
  h_S_ : 0 < S_.numel
  bcast_S_S8x512x1024 : S_.BroadcastsInDim S8x512x1024 (![] : Fin 0 → Fin S8x512x1024.rank)
  bcast_S8x512x1024_S8x1x512x1024_0_2_3 : S8x512x1024.BroadcastsInDim S8x1x512x1024 (![0, 2, 3] : Fin 3 → Fin S8x1x512x1024.rank)
  bcast_S8x1x512x1024_S8x19x512x1024_0_1_2_3 : S8x1x512x1024.BroadcastsInDim S8x19x512x1024 (![0, 1, 2, 3] : Fin 4 → Fin S8x19x512x1024.rank)
  shapeCasts_S8x512x1024_S4194304 : S8x512x1024.ShapeCasts S4194304
  bcast_S_S19 : S_.BroadcastsInDim S19 (![] : Fin 0 → Fin S19.rank)
  bcast_S_S4194304 : S_.BroadcastsInDim S4194304 (![] : Fin 0 → Fin S4194304.rank)
  bcast_S4194304_S4194304x1_0 : S4194304.BroadcastsInDim S4194304x1 (![0] : Fin 1 → Fin S4194304x1.rank)
  transposes_S8x19x512x1024_S8x512x1024x19_0_2_3_1 : S8x19x512x1024.Transposes [0, 2, 3, 1] S8x512x1024x19
  shapeCasts_S8x512x1024x19_S4194304x19 : S8x512x1024x19.ShapeCasts S4194304x19
  bcast_S_S4194304x1 : S_.BroadcastsInDim S4194304x1 (![] : Fin 0 → Fin S4194304x1.rank)
  shapeCasts_S4194304x1_S4194304x1x1 : S4194304x1.ShapeCasts S4194304x1x1
  bcast_S_S4194304x1x1 : S_.BroadcastsInDim S4194304x1x1 (![] : Fin 0 → Fin S4194304x1x1.rank)
  bcast_S1_S1x1x1_2 : S1.BroadcastsInDim S1x1x1 (![2] : Fin 1 → Fin S1x1x1.rank)
  bcast_S1x1x1_S4194304x1x1_0_1_2 : S1x1x1.BroadcastsInDim S4194304x1x1 (![0, 1, 2] : Fin 3 → Fin S4194304x1x1.rank)
  reducesTo_S4194304x1x1_S4194304x1_d2 : S4194304x1x1.ReducesTo [2] S4194304x1
  shapeCasts_S4194304x1_S4194304 : S4194304x1.ShapeCasts S4194304
  reducesTo_S4194304_S_d0 : S4194304.ReducesTo [0] S_
  scatter_S19_S4194304x1_S4194304_n_0_0_1_wf : ScatterDims.WF S19 S4194304x1 S4194304 [] [0] [0] 1
  gather_S19_S4194304x1_S4194304_n_0_n_n_0_1_1_wf : GatherDims.WF S19 S4194304x1 S4194304 [] [0] [] [0] [] 1 ![1]
  gather_S4194304x19_S4194304x1x1_S4194304x1_n_1_0_0_1_2_11_wf : GatherDims.WF S4194304x19 S4194304x1x1 S4194304x1 [] [1] [0] [1] [0] 2 ![1, 1]

variable [Facts₀]

def scatter_S19_S4194304x1_S4194304_n_0_0_1 : ScatterDims S19 S4194304x1 S4194304 where
  updateWindowDims := []
  insertedWindowDims := [0]
  scatterDimsToOperandDims := [0]
  indexVectorDim := 1
  wf := scatter_S19_S4194304x1_S4194304_n_0_0_1_wf
def gather_S19_S4194304x1_S4194304_n_0_n_n_0_1_1 : GatherDims S19 S4194304x1 S4194304 where
  offsetDims := []
  collapsedSliceDims := [0]
  operandBatchingDims := []
  startIndicesBatchingDims := []
  startIndexMap := [0]
  indexVectorDim := 1
  sliceSizes := ![1]
  wf := gather_S19_S4194304x1_S4194304_n_0_n_n_0_1_1_wf
def gather_S4194304x19_S4194304x1x1_S4194304x1_n_1_0_0_1_2_11 : GatherDims S4194304x19 S4194304x1x1 S4194304x1 where
  offsetDims := []
  collapsedSliceDims := [1]
  operandBatchingDims := [0]
  startIndicesBatchingDims := [0]
  startIndexMap := [1]
  indexVectorDim := 2
  sliceSizes := ![1, 1]
  wf := gather_S4194304x19_S4194304x1x1_S4194304x1_n_1_0_0_1_2_11_wf

class Facts : Prop extends Facts₀ where

variable [Facts]
-- ==== Proof.LibTRefCast.lean ====
/-
  A VALUE STORED THROUGH A TYPED REFERENCE AND READ BACK IS ITSELF.

  The operations of a module-local function (a `func.call` of the program: jnp.take's `_take`, jnp.where's `_where`, …) are
  built over typed references, and each moves its function's operands and result between the value's type and the
  buffer's own along the reference's type equation (`TRef.ofBuf`, `TRef.toBuf`). Read back after a run of such
  operations (the `*_result` lemmas, `after_results`, `after_results_simp`), every intermediate value therefore sits
  under a pair `x.ofBuf (x.toBuf v)` of the SAME reference, and the term, though equal to the plain composition of the
  operations' functions, is not syntactically so; closing it by `rfl` sends the elaborator through every transport.
  `simp only [TRef.ofBuf_toBuf]` removes the pairs without evaluating any buffer type; what is left is the outermost
  `toBuf` and the `ofBuf` of each buffer the stretch reads, each the identity at a literal reference by `rfl`.
-/
import Idealize.ShloMosaic.Lib.StableHlo

namespace Idealize.ShloMosaic.StableHlo.TRef

variable {sig : RefSig} {Val : EltTy → Type} {T : BufTy}

/-- Storing a value at a typed reference's buffer type and reading it back at the value's type gives the value. -/
theorem ofBuf_toBuf (x : TRef sig T) (v : T.Contents Val) : x.ofBuf (x.toBuf v) = v := by
  obtain ⟨r, h, _, _⟩ := x
  subst h
  rfl

/-- Reading a buffer's contents at the value's type and storing them back gives the contents. -/
theorem toBuf_ofBuf (x : TRef sig T) (v : x.ref.ty.Contents Val) : x.toBuf (x.ofBuf v) = v := by
  obtain ⟨r, h, _, _⟩ := x
  subst h
  rfl

end Idealize.ShloMosaic.StableHlo.TRef
-- ==== Proof.RefRunBack.lean ====
/-
  The reference program's run, read back.

  The reference calls three module-local functions (log_softmax, where, take_along_axis). Their operations act on
  typed references, and each moves its operands and its result between the value's type and the buffer's own type
  along the reference's type equation. After the operations' results are read back, the value of every
  intermediate of a call sits under such a transport. Where a transport into a buffer's type meets the transport
  out of the same reference the pair cancels; what is left is one transport at each place where a value crosses
  between a call's body and the operations around it. At a literal reference the two types are the same type, so
  each of these is the identity: the eleven equations below, one per crossing. With them removed the read-back
  term is the plain composition of the operations' functions, the term the run is stated with.
-/
import proofs.«425224_j89575837925692_2_alg».proof.Proof.RefRun
import proofs.«425224_j89575837925692_2_alg».proof.Proof.LibTRefCast

noncomputable section

namespace Cert.ReferenceIdeal.RunBack

open Cert.ReferenceIdeal Cert.ReferenceIdeal.Gen Cert.ReferenceIdeal.Value Idealize.ShloMosaic Idealize.ShloMosaic.TcCoe
open Idealize.SL.Sem Idealize.ShloMosaic.StableHlo

variable {F : FTy → Type} [FloatOps F]

/-! ## A transport at a literal reference is the identity -/

/-- The weights, leaving the body of `where`. -/
theorem toBuf_main_v17 (h1 : main_v17.ty = ⟨S19, .f32⟩) (h2 : main_v17.space ≠ .host) (h3 : main_v17.isScoped = false)
    (v : (⟨S19, .f32⟩ : BufTy).Contents (Elt F)) :
    (TRef.of (sig := sig) (T := ⟨S19, .f32⟩) main_v17 h1 h2 h3).toBuf v = v := rfl

/-- The test `counts > 0`, entering the body of `where`. -/
theorem ofBuf_main_v12 (h1 : main_v12.ty = ⟨S19, .i1⟩) (h2 : main_v12.space ≠ .host) (h3 : main_v12.isScoped = false)
    (v : main_v12.ty.Contents (Elt F)) :
    (TRef.of (sig := sig) (T := ⟨S19, .i1⟩) main_v12 h1 h2 h3).ofBuf v = v := rfl

/-- The reciprocals `1 / max counts 1`, entering the body of `where`. -/
theorem ofBuf_main_v16 (h1 : main_v16.ty = ⟨S19, .f32⟩) (h2 : main_v16.space ≠ .host) (h3 : main_v16.isScoped = false)
    (v : main_v16.ty.Contents (Elt F)) :
    (TRef.of (sig := sig) (T := ⟨S19, .f32⟩) main_v16 h1 h2 h3).ofBuf v = v := rfl

/-- The constant one, entering the body of `where`. -/
theorem ofBuf_main_cst_5 (h1 : main_cst_5.ty = ⟨S_, .f32⟩) (h2 : main_cst_5.space ≠ .host) (h3 : main_cst_5.isScoped = false)
    (v : main_cst_5.ty.Contents (Elt F)) :
    (TRef.of (sig := sig) (T := ⟨S_, .f32⟩) main_cst_5 h1 h2 h3).ofBuf v = v := rfl

/-- The taken log-probabilities, leaving the body of `take_along_axis`. -/
theorem toBuf_main_v28 (h1 : main_v28.ty = ⟨S4194304x1, .f32⟩) (h2 : main_v28.space ≠ .host) (h3 : main_v28.isScoped = false)
    (v : (⟨S4194304x1, .f32⟩ : BufTy).Contents (Elt F)) :
    (TRef.of (sig := sig) (T := ⟨S4194304x1, .f32⟩) main_v28 h1 h2 h3).toBuf v = v := rfl

/-- The reshaped index column, read inside `take_along_axis`. -/
theorem ofBuf_main_call2_v5 (h1 : main_call2_v5.ty = ⟨S4194304x1x1, .i32⟩) (h2 : main_call2_v5.space ≠ .host)
    (h3 : main_call2_v5.isScoped = false) (v : main_call2_v5.ty.Contents (Elt F)) :
    (TRef.of (sig := sig) (T := ⟨S4194304x1x1, .i32⟩) main_call2_v5 h1 h2 h3).ofBuf v = v := rfl

/-- The wrapped index column, written inside `take_along_axis` before its reshape. -/
theorem toBuf_main_call2_v4 (h1 : main_call2_v4.ty = ⟨S4194304x1, .i32⟩) (h2 : main_call2_v4.space ≠ .host)
    (h3 : main_call2_v4.isScoped = false) (v : (⟨S4194304x1, .i32⟩ : BufTy).Contents (Elt F)) :
    (TRef.of (sig := sig) (T := ⟨S4194304x1, .i32⟩) main_call2_v4 h1 h2 h3).toBuf v = v := rfl

/-- The class words as a column, entering the body of `take_along_axis`. -/
theorem ofBuf_main_v27 (h1 : main_v27.ty = ⟨S4194304x1, .i32⟩) (h2 : main_v27.space ≠ .host) (h3 : main_v27.isScoped = false)
    (v : main_v27.ty.Contents (Elt F)) :
    (TRef.of (sig := sig) (T := ⟨S4194304x1, .i32⟩) main_v27 h1 h2 h3).ofBuf v = v := rfl

/-- The log-probabilities, one row per pixel, entering the body of `take_along_axis`. -/
theorem ofBuf_main_v26 (h1 : main_v26.ty = ⟨S4194304x19, .f32⟩) (h2 : main_v26.space ≠ .host) (h3 : main_v26.isScoped = false)
    (v : main_v26.ty.Contents (Elt F)) :
    (TRef.of (sig := sig) (T := ⟨S4194304x19, .f32⟩) main_v26 h1 h2 h3).ofBuf v = v := rfl

/-- The log-probabilities, leaving the body of `log_softmax`. -/
theorem toBuf_main_v0 (h1 : main_v0.ty = ⟨S8x19x512x1024, .f32⟩) (h2 : main_v0.space ≠ .host) (h3 : main_v0.isScoped = false)
    (v : (⟨S8x19x512x1024, .f32⟩ : BufTy).Contents (Elt F)) :
    (TRef.of (sig := sig) (T := ⟨S8x19x512x1024, .f32⟩) main_v0 h1 h2 h3).toBuf v = v := rfl

/-- The logits, entering the body of `log_softmax`. -/
theorem ofBuf_main_arg0 (h1 : main_arg0.ty = ⟨S8x19x512x1024, .f32⟩) (h2 : main_arg0.space ≠ .host) (h3 : main_arg0.isScoped = false)
    (v : main_arg0.ty.Contents (Elt F)) :
    (TRef.of (sig := sig) (T := ⟨S8x19x512x1024, .f32⟩) main_arg0 h1 h2 h3).ofBuf v = v := rfl

/-! ## The run -/

set_option maxRecDepth 65536 in
set_option maxHeartbeats 33600000 in
/-- The fold of the 84 operations' results over the launch contents, read at the result buffer, is the composed
    term of the two arguments. -/
theorem back (m : (ℓ : Loc nD τ sig) → Buf (Elt F) ℓ) (c : Dev nD) :
    after (ops (F := F)) (launchContents m c) (Proc.devRef .tc main_v34) = res_main_v34 m c := by
  after_results_simp
  simp only [TRef.ofBuf_toBuf, TRef.toBuf_ofBuf, toBuf_main_v17, ofBuf_main_v12, ofBuf_main_v16, ofBuf_main_cst_5,
    toBuf_main_v28, ofBuf_main_call2_v5, toBuf_main_call2_v4, ofBuf_main_v27, ofBuf_main_v26, toBuf_main_v0, ofBuf_main_arg0]
  unfold res_main_v34
  rfl

set_option maxRecDepth 8192 in
set_option maxHeartbeats 4000000 in
/-- On every device, for any float values, from any memory with zero counters: every weakly fair execution of
    the reference terminates with its result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = res_main_v34 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v34).trans (back m c),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RunBack

end
-- ==== Proof.Spec.lean ====
/-
  The quantity both programs compute: a class-balanced mean of per-pixel negative log-likelihoods.

  For a pixel with logits `v : Fin 19 → EReal` and class `c`, the negative log-likelihood is
  `-((v c - M) - log (∑ c', exp (v c' - M)))` with `M` the largest logit (the shift by `M` is part of both programs).
  With `N c` the number of pixels of class `c`, `S c` the sum of their negative log-likelihoods and the weight
  `wt n = 1 / max n 1` for `n > 0` (and `1` for an empty class), the result is
  `(∑ c, wt (N c) * S c) / (∑ c, wt (N c) * N c)`: the per-class arrangement. The per-pixel arrangement
  `(∑ pixels, wt (N (class of the pixel)) * nll) / (∑ pixels, wt (N (class of the pixel)))` is the same number,
  because each weight is a non-negative real and such a factor distributes over any sum of extended reals.
-/
import Idealize.ShloMosaic.PureOps.Ideal
import Idealize.ShloMosaic.PureOps.Ideal.Laws
import Idealize.ShloMosaic.Lib.ValueIdx

noncomputable section

open scoped BigOperators

namespace Cert.WCE

open Idealize.ShloMosaic

/-- The classes after class 0, in the order both running folds visit them. -/
def tailClasses : List (Fin 19) := [1, 2, 3, 4, 5, 6, 7, 8, 9, 10, 11, 12, 13, 14, 15, 16, 17, 18]

/-- A pixel's largest logit, as the running maximum from class 0 upward. -/
def pmax (v : Fin 19 → EReal) : EReal := tailClasses.foldl (fun a c => max a (v c)) (v 0)

/-- A pixel's sum of shifted exponentials, as the running sum from class 0 upward. -/
def psum (v : Fin 19 → EReal) : EReal :=
  tailClasses.foldl (fun a c => a + Ideal.exp (v c - pmax v)) (Ideal.exp (v 0 - pmax v))

/-- A pixel's negative log-likelihood of class `c`. -/
def pnll (v : Fin 19 → EReal) (c : Fin 19) : EReal := -((v c - pmax v) - Ideal.log (psum v))

/-- Class `c`'s lane in a 128-lane row. -/
def lane (c : Fin 19) : Fin 128 := ⟨c.val, by have := c.isLt; omega⟩

/-- The weight of a class with `n` pixels: `1 / max n 1` when `n > 0`, else `1`. -/
def wt (n : EReal) : EReal := Scalar.select (Ideal.cmp .ogt n 0) (Ideal.div 1 (max n 1)) 1

section
variable (x : Fin 8 → Fin 19 → Fin 512 → Fin 1024 → EReal) (k : Fin 8 → Fin 512 → Fin 1024 → Fin 19)

/-- The negative log-likelihood of pixel `(b, h, w)` at its own class. -/
def nll (b : Fin 8) (h : Fin 512) (w : Fin 1024) : EReal := pnll (fun c => x b c h w) (k b h w)

/-- The sum of the negative log-likelihoods of the pixels of class `c`. -/
def S (c : Fin 19) : EReal := ∑ b, ∑ h, ∑ w, if k b h w = c then nll x k b h w else 0

/-- The number of pixels of class `c`. -/
def N (c : Fin 19) : EReal := ∑ b, ∑ h, ∑ w, if k b h w = c then (1 : EReal) else 0

/-- The result in the per-class arrangement. -/
def result : EReal := Ideal.div (∑ c, wt (N k c) * S x k c) (∑ c, wt (N k c) * N k c)

/-- The result in the per-pixel arrangement. -/
def resultPix : EReal :=
  Ideal.div (∑ b, ∑ h, ∑ w, wt (N k (k b h w)) * nll x k b h w) (∑ b, ∑ h, ∑ w, wt (N k (k b h w)))

end

end Cert.WCE

end
-- ==== Proof.Algebra.lean ====
/-
  The algebra of the class-balanced mean.
-/
import proofs.«425224_j89575837925692_2_alg».proof.Proof.Spec
import Mathlib.Data.EReal.Operations
import Mathlib.Algebra.BigOperators.Fin
import Mathlib.Data.Multiset.Fold
import Mathlib.Data.Finset.Fold
import Mathlib.Tactic.FinCases

noncomputable section

open scoped BigOperators

namespace Cert.WCE

open Idealize.ShloMosaic

/-- A non-negative real factor distributes over any finite sum of extended reals. -/
theorem real_mul_sum {ι : Type*} (s : Finset ι) (r : ℝ) (hr : 0 ≤ r) (f : ι → EReal) :
    (r : EReal) * ∑ i ∈ s, f i = ∑ i ∈ s, (r : EReal) * f i := by
  classical
  refine Finset.induction_on s ?_ ?_
  · simp
  · intro a s ha ih
    rw [Finset.sum_insert ha, Finset.sum_insert ha,
      EReal.left_distrib_of_nonneg_of_ne_top (EReal.coe_nonneg.mpr hr) (EReal.coe_ne_top r), ih]

/-- A class's pixel count is a natural number. -/
theorem N_eq_natCast (k : Fin 8 → Fin 512 → Fin 1024 → Fin 19) (c : Fin 19) : ∃ n : ℕ, N k c = (n : EReal) := by
  refine ⟨∑ b, ∑ h, ∑ w, if k b h w = c then 1 else 0, ?_⟩
  simp only [N, Nat.cast_sum, Nat.cast_ite, Nat.cast_one, Nat.cast_zero]

/-- The weight of a natural count is a non-negative real. -/
theorem wt_natCast (n : ℕ) : ∃ r : ℝ, 0 ≤ r ∧ wt (n : EReal) = (r : EReal) := by
  rcases Nat.eq_zero_or_pos n with h | h
  · -- an empty class: the comparison `0 > 0` fails and the weight is `1`
    subst h
    refine ⟨1, zero_le_one, ?_⟩
    have hc : Ideal.cmp .ogt ((0 : ℕ) : EReal) 0 = 0#1 := by
      simp [Ideal.cmp]
    unfold wt
    rw [hc]
    unfold Scalar.select
    rw [if_neg (by decide)]
    simp
  · -- a class with `n ≥ 1` pixels: the weight is `1 / n`
    refine ⟨1 / (n : ℝ), by positivity, ?_⟩
    have hpos : (0 : EReal) < (n : EReal) := by
      have h' : ((0 : ℕ) : EReal) < (n : EReal) := EReal.natCast_lt_iff.mpr h
      simpa using h'
    have hmax : max (n : EReal) 1 = (n : EReal) := by
      apply max_eq_left
      have h' : ((1 : ℕ) : EReal) ≤ (n : EReal) := EReal.natCast_le_iff.mpr h
      simpa using h'
    have hne : (n : ℝ) ≠ 0 := by positivity
    have hc : Ideal.cmp .ogt (n : EReal) 0 = 1#1 := by
      simp [Ideal.cmp, hpos]
    unfold wt
    rw [hmax, hc]
    unfold Scalar.select
    rw [if_pos (by decide)]
    rw [← EReal.coe_coe_eq_natCast, Ideal.div_coe hne, one_mul]

/-- The two arrangements of the result agree. -/
theorem resultPix_eq_result (x : Fin 8 → Fin 19 → Fin 512 → Fin 1024 → EReal) (k : Fin 8 → Fin 512 → Fin 1024 → Fin 19) :
    resultPix x k = result x k := by
  -- every weight is a non-negative real
  have hw : ∀ c, ∃ r : ℝ, 0 ≤ r ∧ wt (N k c) = (r : EReal) := by
    intro c
    obtain ⟨n, hn⟩ := N_eq_natCast k c
    rw [hn]
    exact wt_natCast n
  choose r hr0 hr using hw
  -- a weighted sum over pixels regroups by class
  have key : ∀ a : Fin 8 → Fin 512 → Fin 1024 → EReal,
      ∑ b, ∑ h, ∑ w, wt (N k (k b h w)) * a b h w
        = ∑ c, wt (N k c) * ∑ b, ∑ h, ∑ w, if k b h w = c then a b h w else 0 := by
    intro a
    symm
    calc ∑ c, wt (N k c) * ∑ b, ∑ h, ∑ w, (if k b h w = c then a b h w else 0)
        = ∑ c, ∑ b, ∑ h, ∑ w, wt (N k c) * (if k b h w = c then a b h w else 0) := by
          refine Finset.sum_congr rfl fun c _ => ?_
          rw [hr c, real_mul_sum _ _ (hr0 c)]
          refine Finset.sum_congr rfl fun b _ => ?_
          rw [real_mul_sum _ _ (hr0 c)]
          refine Finset.sum_congr rfl fun h _ => ?_
          rw [real_mul_sum _ _ (hr0 c)]
      _ = ∑ b, ∑ h, ∑ w, ∑ c, wt (N k c) * (if k b h w = c then a b h w else 0) := by
          rw [Finset.sum_comm]
          refine Finset.sum_congr rfl fun b _ => ?_
          rw [Finset.sum_comm]
          refine Finset.sum_congr rfl fun h _ => ?_
          rw [Finset.sum_comm]
      _ = ∑ b, ∑ h, ∑ w, wt (N k (k b h w)) * a b h w := by
          refine Finset.sum_congr rfl fun b _ => Finset.sum_congr rfl fun h _ =>
            Finset.sum_congr rfl fun w _ => ?_
          simp only [mul_ite, mul_zero]
          rw [Finset.sum_ite_eq]
          simp only [Finset.mem_univ, if_true]
  have hnum : ∑ b, ∑ h, ∑ w, wt (N k (k b h w)) * nll x k b h w = ∑ c, wt (N k c) * S x k c :=
    key (nll x k)
  have hden : ∑ b, ∑ h, ∑ w, wt (N k (k b h w)) = ∑ c, wt (N k c) * N k c := by
    have h1 := key (fun _ _ _ => 1)
    simp only [mul_one] at h1
    exact h1
  unfold resultPix result
  rw [hnum, hden]

/-- The nineteen classes in order: class 0, then the classes after it. -/
theorem finRange_nineteen : List.finRange 19 = (0 : Fin 19) :: tailClasses := by
  decide

/-- The fold of `max` from `⊥` over the nineteen classes is the running maximum. -/
theorem fold_max_eq_pmax (v : Fin 19 → EReal) : (Finset.univ : Finset (Fin 19)).fold max ⊥ v = pmax v := by
  have h : (Finset.univ : Finset (Fin 19)).fold max ⊥ v = ((List.finRange 19).map v).foldr max ⊥ := by
    show Multiset.fold max ⊥ (Multiset.map v (Finset.univ : Finset (Fin 19)).1) = _
    have hu : (Finset.univ : Finset (Fin 19)).1 = ((List.finRange 19 : List (Fin 19)) : Multiset (Fin 19)) := rfl
    rw [hu, Multiset.map_coe, Multiset.coe_fold_r]
  rw [h, finRange_nineteen]
  simp only [pmax, tailClasses, List.map_cons, List.map_nil, List.foldr_cons, List.foldr_nil,
    List.foldl_cons, List.foldl_nil, max_bot_right, max_assoc]

/-- The sum of the shifted exponentials over the nineteen classes is the running sum. -/
theorem sum_exp_eq_psum (v : Fin 19 → EReal) : ∑ c : Fin 19, Ideal.exp (v c - pmax v) = psum v := by
  rw [Fin.sum_univ_def, finRange_nineteen]
  simp only [psum, tailClasses, List.map_cons, List.map_nil, List.sum_cons, List.sum_nil,
    List.foldl_cons, List.foldl_nil, add_zero, add_assoc]

/-- Selecting the target class's logit by a chain of equality tests on the class word, from class 0 upward
    (the value is `0` where no test succeeds). -/
def pick (v : Fin 19 → EReal) (a : BitVec 32) : EReal :=
  tailClasses.foldl (fun acc c => Scalar.select (IntOp.cmpi .eq a (BitVec.ofNat 32 c.val)) (v c) acc)
    (Scalar.select (IntOp.cmpi .eq a 0#32) (v 0) 0)

/-- Two class words are equal exactly when the classes are. -/
theorem classWord_eq_iff (c c' : Fin 19) : BitVec.ofNat 32 c.val = BitVec.ofNat 32 c'.val ↔ c = c' := by
  constructor
  · intro he
    have ht := congrArg BitVec.toNat he
    simp only [BitVec.toNat_ofNat] at ht
    have h1 := c.isLt
    have h2 := c'.isLt
    rw [Nat.mod_eq_of_lt (by omega), Nat.mod_eq_of_lt (by omega)] at ht
    exact Fin.ext ht
  · intro he
    rw [he]

/-- One equality test of the chain, on class words: it keeps the accumulator unless the classes agree. -/
theorem select_classWord (c c' : Fin 19) (p q : EReal) :
    Scalar.select (IntOp.cmpi .eq (BitVec.ofNat 32 c.val) (BitVec.ofNat 32 c'.val)) p q = if c = c' then p else q := by
  by_cases h : c = c'
  · subst h
    simp [Scalar.select, IntOp.cmpi]
  · have hne : BitVec.ofNat 32 c.val ≠ BitVec.ofNat 32 c'.val := fun he => h ((classWord_eq_iff c c').mp he)
    have hb : (BitVec.ofNat 32 c.val == BitVec.ofNat 32 c'.val) = false := beq_eq_false_iff_ne.mpr hne
    simp only [Scalar.select, IntOp.cmpi, hb, BitVec.ofBool_false, if_neg h]
    rw [if_neg (by decide)]

/-- On the word of a class the chain selects that class's logit. -/
theorem pick_ofNat (v : Fin 19 → EReal) (c : Fin 19) : pick v (BitVec.ofNat 32 c.val) = v c := by
  have h0 : (0#32 : BitVec 32) = BitVec.ofNat 32 (0 : Fin 19).val := rfl
  unfold pick
  rw [h0]
  simp only [tailClasses, List.foldl_cons, List.foldl_nil, select_classWord]
  fin_cases c <;> simp

/-- Clamping the word of a class into `[0, 18]` (signed) leaves it unchanged. -/
theorem clamp_ofNat (c : Fin 19) :
    IntOp.minsi 18#32 (IntOp.maxsi 0#32 (BitVec.ofNat 32 c.val)) = BitVec.ofNat 32 c.val := by
  fin_cases c <;> decide

/-- The equality test of two class words, widened and read as a float, is the indicator of equal classes. -/
theorem ind_ofNat (c c' : Fin 19) :
    ((((IntOp.cmpi .eq (BitVec.ofNat 32 c.val) (BitVec.ofNat 32 c'.val)).setWidth 32).toInt : ℝ) : EReal)
      = if c = c' then 1 else 0 := by
  by_cases h : c = c'
  · subst h
    simp [IntOp.cmpi]
  · have hne : BitVec.ofNat 32 c.val ≠ BitVec.ofNat 32 c'.val := fun he => h ((classWord_eq_iff c c').mp he)
    have hb : (BitVec.ofNat 32 c.val == BitVec.ofNat 32 c'.val) = false := beq_eq_false_iff_ne.mpr hne
    simp only [IntOp.cmpi, hb, if_neg h]
    simp

/-- A word that is at least `0` and below `19` (signed) is the word of a class. -/
theorem exists_class_of_range (a : BitVec 32) (h0 : IntOp.cmpi .sge a 0#32 = 1#1) (h1 : IntOp.cmpi .slt a 19#32 = 1#1) :
    ∃ c : Fin 19, a = BitVec.ofNat 32 c.val := by
  have h0' : (0#32).sle a = true := by
    cases hb : (0#32).sle a
    · simp [IntOp.cmpi, hb] at h0
    · rfl
  have h1' : a.slt 19#32 = true := by
    cases hb : a.slt 19#32
    · simp [IntOp.cmpi, hb] at h1
    · rfl
  rw [BitVec.sle_eq_decide, decide_eq_true_eq] at h0'
  rw [BitVec.slt_eq_decide, decide_eq_true_eq] at h1'
  have e0 : (0#32 : BitVec 32).toInt = 0 := by decide
  have e19 : (19#32 : BitVec 32).toInt = 19 := by decide
  rw [e0] at h0'
  rw [e19] at h1'
  have hlt := a.isLt
  rw [BitVec.toInt_eq_toNat_cond] at h0' h1'
  have hn : a.toNat < 19 := by
    split_ifs at h0' h1' <;> omega
  refine ⟨⟨a.toNat, hn⟩, ?_⟩
  apply BitVec.eq_of_toNat_eq
  simp only [BitVec.toNat_ofNat]
  rw [Nat.mod_eq_of_lt (by omega)]

end Cert.WCE

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.LibTakeAlongRow.lean ====
/-
  A BATCHED TAKE ALONG THE ROW AXIS, read at an index.

  `jnp.take_along_axis(x, idx, axis=1)` of `x : [B, N]` at `idx : [B, M]` lowers to a `stablehlo.gather` whose start
  indices are reshaped to `[B, M, 1]`: offset_dims `[]`, collapsed_slice_dims `[1]`, operand_batching_dims `[0]`,
  start_indices_batching_dims `[0]`, start_index_map `[1]`, index_vector_dim `2`, slice_sizes `[1, 1]`. This file builds
  that record from the sizes (`rowTakeDims`) and reads the gather at `(b, m)`: the operand at `(b, k)` with `k` the
  start index `idx[b, m, 0]` read SIGNED and CLAMPED into `[0, N − 1]` (`rowTake_apply`). A 32-bit word below `2^31`
  read signed is itself (`toInt_toNat_of_lt`), so an in-range index is taken as it stands.
-/
import Idealize.ShloMosaic.PureOps.Ideal
import Idealize.ShloMosaic.Lib.ValueIdx

noncomputable section

namespace Idealize.ShloMosaic.TakeAlongRow

open Idealize.ShloMosaic Idealize.ShloMosaic.ValueIdx

variable {α : Type}

/-- Those dimension numbers for an operand `[B, N]`, start indices `[B, M, 1]` and result `[B, M]`; their
    conditions `wf` are decided on a program's literal shapes. -/
abbrev rowTakeDims (B N M : Nat)
    (wf : GatherDims.WF ⟨2, ![B, N]⟩ ⟨3, ![B, M, 1]⟩ ⟨2, ![B, M]⟩ [] [1] [0] [1] [0] 2 ![1, 1]) :
    GatherDims ⟨2, ![B, N]⟩ ⟨3, ![B, M, 1]⟩ ⟨2, ![B, M]⟩ where
  offsetDims := []
  collapsedSliceDims := [1]
  operandBatchingDims := [0]
  startIndicesBatchingDims := [0]
  startIndexMap := [1]
  indexVectorDim := 2
  sliceSizes := ![1, 1]
  wf := wf

variable {B N M w : Nat}
  (wf : GatherDims.WF ⟨2, ![B, N]⟩ ⟨3, ![B, M, 1]⟩ ⟨2, ![B, M]⟩ [] [1] [0] [1] [0] 2 ![1, 1])

/-- The start index of result element `(b, m)` is read at `(b, m, 0)`: the batch coordinate, the position along the
    taken axis, and the one component of the index vector. -/
theorem siIdx_eq (b : Fin B) (m : Fin M) :
    (rowTakeDims B N M wf).siIdx (ix2 b m) ⟨List.idxOf (1 : Fin 2) (rowTakeDims B N M wf).startIndexMap,
      List.idxOf_lt_length_iff.2 (List.mem_singleton.mpr rfl)⟩ = ix3 b m 0 := by
  funext a; refine Fin.ext ?_
  match a with
  | ⟨0, _⟩ => rfl
  | ⟨1, _⟩ => rfl
  | ⟨2, _⟩ => rfl

/-- On the taken axis the slice starts at the index `idx[b, m, 0]` read signed and clamped into `[0, N − 1]`. -/
theorem start_1 (idx : IVec ⟨3, ![B, M, 1]⟩ w) (b : Fin B) (m : Fin M) :
    (rowTakeDims B N M wf).start (ix2 b m) idx 1 = min (idx (ix3 b m 0)).toInt.toNat (N - 1) := by
  have hmem : (1 : Fin 2) ∈ (rowTakeDims B N M wf).startIndexMap := List.mem_singleton.mpr rfl
  unfold GatherDims.start
  rw [dif_pos hmem, siIdx_eq]
  rfl

/-- On the batching axis the start index map names nothing: the slice starts at `0`. -/
theorem start_0 (idx : IVec ⟨3, ![B, M, 1]⟩ w) (j : (⟨2, ![B, M]⟩ : Shape).Idx) :
    (rowTakeDims B N M wf).start j idx 0 = 0 := by
  unfold GatherDims.start
  rw [dif_neg (by decide : (0 : Fin 2) ∉ ([1] : List (Fin 2)))]

/-- The batching coordinate: the result's batch coordinate on axis 0, nothing on the taken axis. -/
theorem batch_0 (b : Fin B) (m : Fin M) : (rowTakeDims B N M wf).batchCoord (ix2 b m) 0 = b.val := by
  unfold GatherDims.batchCoord
  rw [dif_pos (by decide : (0 : Fin 2) ∈ ([0] : List (Fin 2)))]
  rfl
theorem batch_1 (j : (⟨2, ![B, M]⟩ : Shape).Idx) : (rowTakeDims B N M wf).batchCoord j 1 = 0 :=
  (rowTakeDims B N M wf).batchCoord_eq_zero j 1 (by decide : (1 : Fin 2) ∉ ([0] : List (Fin 2)))

/-- There is no offset axis: the offset coordinate is nothing on the batching and on the collapsed axis. -/
theorem off_0 (j : (⟨2, ![B, M]⟩ : Shape).Idx) : (rowTakeDims B N M wf).offCoord j 0 = 0 :=
  (rowTakeDims B N M wf).offCoord_eq_zero j 0 fun h =>
    (((rowTakeDims B N M wf).mem_sKept 0).mp h).2 (by decide : (0 : Fin 2) ∈ ([0] : List (Fin 2)))
theorem off_1 (j : (⟨2, ![B, M]⟩ : Shape).Idx) : (rowTakeDims B N M wf).offCoord j 1 = 0 :=
  (rowTakeDims B N M wf).offCoord_eq_zero j 1 fun h =>
    (((rowTakeDims B N M wf).mem_sKept 1).mp h).1 (by decide : (1 : Fin 2) ∈ ([1] : List (Fin 2)))

/-- THE TAKE READ AT `(b, m)`: the operand at `(b, k)`, `k` the start index `idx[b, m, 0]` read signed and clamped
    into `[0, N − 1]`. -/
theorem rowTake_apply (hN : 0 < N) (x : (⟨2, ![B, N]⟩ : Shape).Idx → α) (idx : IVec ⟨3, ![B, M, 1]⟩ w)
    (b : Fin B) (m : Fin M) :
    Host.gather (rowTakeDims B N M wf) x idx (ix2 b m)
      = x (ix2 b ⟨min (idx (ix3 b m 0)).toInt.toNat (N - 1), by omega⟩) := by
  unfold Host.gather
  congr 1
  funext a
  refine Fin.ext ?_
  show (rowTakeDims B N M wf).start (ix2 b m) idx a + (rowTakeDims B N M wf).batchCoord (ix2 b m) a
    + (rowTakeDims B N M wf).offCoord (ix2 b m) a = _
  match a with
  | ⟨0, _⟩ =>
    show (rowTakeDims B N M wf).start (ix2 b m) idx 0 + (rowTakeDims B N M wf).batchCoord (ix2 b m) 0
      + (rowTakeDims B N M wf).offCoord (ix2 b m) 0 = b.val
    rw [start_0, batch_0, off_0]; omega
  | ⟨1, _⟩ =>
    show (rowTakeDims B N M wf).start (ix2 b m) idx 1 + (rowTakeDims B N M wf).batchCoord (ix2 b m) 1
      + (rowTakeDims B N M wf).offCoord (ix2 b m) 1 = min (idx (ix3 b m 0)).toInt.toNat (N - 1)
    rw [start_1, batch_1, off_1]; omega

/-- A 32-bit word below `2^31` read signed is itself: its sign bit is clear. -/
theorem toInt_toNat_of_lt {a : BitVec 32} {n : Nat} (h : a.toNat < n) (hn : n ≤ 2 ^ 31) : a.toInt.toNat = a.toNat := by
  rw [BitVec.toInt_eq_toNat_cond, if_pos (by omega)]
  exact Int.toNat_natCast _

end Idealize.ShloMosaic.TakeAlongRow

end
-- ==== Proof.RefValue.lean ====
/-
  The reference program's result term is the class-balanced mean in the per-pixel arrangement.

  The reference works on the flat pixel axis: position `n` of `4194304 = 8 · 512 · 1024` is pixel
  `(n / 524288, n / 1024 % 512, n % 1024)`. On an input whose class words are the words of classes, every index the
  program wraps, clamps or tests is already in `[0, 18]`, so

  * the scattered histogram at class `c` is the number of pixels of class `c`;
  * the gathered weight at position `n` is the weight of the count of that pixel's class;
  * the log-softmax at `(b, c, h, w)` is `(x − M) − log (∑ exp (x − M))` with `M` the pixel's largest logit, and the value
    taken along the class axis at position `n` is the one at the pixel's own class;
  * the two total sums over flat positions are the triple sums over pixels.
-/
import proofs.«425224_j89575837925692_2_alg».proof.Proof.RefRead
import proofs.«425224_j89575837925692_2_alg».proof.Proof.Algebra
import proofs.«425224_j89575837925692_2_alg».proof.Proof.LibGatherScatter
import proofs.«425224_j89575837925692_2_alg».proof.Proof.LibTakeAlongRow
import Idealize.ShloMosaic.Lib.ValueIdx
import Idealize.ShloMosaic.Lib.IdealHost
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen

/-! ## The pixel of a flat position -/

/-- The batch coordinate of flat position `n` (row-major over `8 × 512 × 1024`). -/
def pb (n : Fin 4194304) : Fin 8 := ⟨n.val / 524288, by have := n.isLt; omega⟩
/-- Its row. -/
def ph (n : Fin 4194304) : Fin 512 := ⟨n.val / 1024 % 512, by omega⟩
/-- Its column. -/
def pw (n : Fin 4194304) : Fin 1024 := ⟨n.val % 1024, by omega⟩

/-- Flat positions are the pixels, in row-major order. -/
def pixEquiv : Fin 4194304 ≃ Fin 8 × Fin 512 × Fin 1024 where
  toFun n := (pb n, ph n, pw n)
  invFun p := ⟨(p.1.val * 512 + p.2.1.val) * 1024 + p.2.2.val, by
    have := p.1.isLt; have := p.2.1.isLt; have := p.2.2.isLt; omega⟩
  left_inv n := Fin.ext (by
    have := n.isLt
    show (n.val / 524288 * 512 + n.val / 1024 % 512) * 1024 + n.val % 1024 = n.val
    omega)
  right_inv p := by
    obtain ⟨b, h, w⟩ := p
    have := b.isLt; have := h.isLt; have := w.isLt
    refine Prod.ext (Fin.ext ?_) (Prod.ext (Fin.ext ?_) (Fin.ext ?_))
    · show ((b.val * 512 + h.val) * 1024 + w.val) / 524288 = b.val
      omega
    · show ((b.val * 512 + h.val) * 1024 + w.val) / 1024 % 512 = h.val
      omega
    · show ((b.val * 512 + h.val) * 1024 + w.val) % 1024 = w.val
      omega

/-- A sum over flat positions of a function of the pixel is the triple sum over pixels. -/
theorem sum_pix {A : Type*} [AddCommMonoid A] (f : Fin 8 → Fin 512 → Fin 1024 → A) :
    ∑ n : Fin 4194304, f (pb n) (ph n) (pw n) = ∑ b, ∑ h, ∑ w, f b h w := by
  refine (Equiv.sum_comp pixEquiv (fun p : Fin 8 × Fin 512 × Fin 1024 => f p.1 p.2.1 p.2.2)).trans ?_
  rw [Fintype.sum_prod_type]
  refine Finset.sum_congr rfl fun b _ => ?_
  rw [Fintype.sum_prod_type]

/-- The number of flat positions whose pixel has class `c` is the class's pixel count. -/
theorem count_eq (k : Fin 8 → Fin 512 → Fin 1024 → Fin 19) (c : Fin 19) :
    ∑ n ∈ Finset.univ.filter (fun n : Fin 4194304 => k (pb n) (ph n) (pw n) = c), (1 : EReal) = Cert.WCE.N k c := by
  rw [Finset.sum_filter]
  exact sum_pix (fun b h w => if k b h w = c then (1 : EReal) else 0)

/-! ## Class words -/

theorem slt_zero (c : Fin 19) : IntOp.cmpi .slt (BitVec.ofNat 32 c.val) 0#32 = 0#1 := by
  revert c; decide
theorem sge_zero (c : Fin 19) : IntOp.cmpi .sge (BitVec.ofNat 32 c.val) 0#32 = 1#1 := by
  revert c; decide
theorem sle_top (c : Fin 19) : IntOp.cmpi .sle (BitVec.ofNat 32 c.val) 18#32 = 1#1 := by
  revert c; decide
theorem toInt_word (c : Fin 19) : (BitVec.ofNat 32 c.val).toInt = (c.val : Int) := by
  revert c; decide
theorem toNat_word (c : Fin 19) : (BitVec.ofNat 32 c.val).toInt.toNat = c.val := by
  rw [toInt_word]; exact Int.toNat_natCast _

theorem wrap_word (c : Fin 19) (y : BitVec 32) :
    Scalar.select (IntOp.cmpi .slt (BitVec.ofNat 32 c.val) 0#32) y (BitVec.ofNat 32 c.val) = BitVec.ofNat 32 c.val := by
  rw [slt_zero, select_zero]

theorem inrange_word (c : Fin 19) :
    IntOp.andi (IntOp.cmpi .sge (BitVec.ofNat 32 c.val) 0#32) (IntOp.cmpi .sle (BitVec.ofNat 32 c.val) 18#32) = 1#1 := by
  rw [sge_zero, sle_top]; rfl

/-- The float pattern of minus infinity. -/
theorem ofBits_ninf : Ideal.ofBits .f32 0xFF800000#32 = (⊥ : EReal) := by
  simp [Ideal.ofBits, Ideal.ieee]

theorem fold_andi_ones {ι : Type} (s : Finset ι) :
    s.fold IntOp.andi 1#1 (fun _ => (1#1 : BitVec 1)) = 1#1 := by
  classical
  induction s using Finset.induction_on with
  | empty => rfl
  | insert a s ha ih => rw [Finset.fold_insert ha, ih]; rfl

/-- `and` on one-bit words is commutative and associative: what a reduction by it folds with. -/
instance andi_comm : Std.Commutative (IntOp.andi (w := 1)) := ⟨fun a b => BitVec.and_comm a b⟩
instance andi_assoc : Std.Associative (IntOp.andi (w := 1)) := ⟨fun a b c => BitVec.and_assoc a b c⟩

/-! ## The class words along the flat axis

Every integer stage of the program, read at a flat position, is the word of that pixel's class: the negative-index
wraps leave it, and the range test of the take succeeds. -/

section Words
variable (T : (⟨S8x512x1024, .i32⟩ : BufTy).Contents (Elt Ideal)) (k : Fin 8 → Fin 512 → Fin 1024 → Fin 19)
  (hk : ∀ b h w, T (ix3 b h w) = BitVec.ofNat 32 (k b h w).val)
include hk

/-- The flattened class array at a position is the word of the pixel's class. -/
theorem word_v1 (i : S4194304.Idx) :
    Read.val_main_v1 (F := Ideal) T i = BitVec.ofNat 32 (k (pb (i 0)) (ph (i 0)) (pw (i 0))).val := by
  have e : Read.idx_main_v1 i = ix3 (pb (i 0)) (ph (i 0)) (pw (i 0)) :=
    funext fun a => Fin.ext (by match a with | ⟨0, _⟩ => rfl | ⟨1, _⟩ => rfl | ⟨2, _⟩ => rfl)
  rw [Read.val_main_v1_apply, e, hk]

/-- The histogram's wrapped index. -/
theorem word_v7 (i : S4194304.Idx) :
    Read.val_main_v7 (F := Ideal) T i = BitVec.ofNat 32 (k (pb (i 0)) (ph (i 0)) (pw (i 0))).val := by
  rw [Read.val_main_v7_apply, Read.val_main_v4_apply, Read.val_main_v3_apply, Read.val_main_c_apply, word_v1 T k hk]
  exact wrap_word _ _

theorem word_v8 (n : Fin 4194304) :
    Read.val_main_v8 (F := Ideal) T (ix2 n 0) = BitVec.ofNat 32 (k (pb n) (ph n) (pw n)).val :=
  (Read.val_main_v8_apply T (ix2 n 0)).trans (word_v7 T k hk _)

/-- The weight lookup's wrapped index. -/
theorem word_v22 (i : S4194304.Idx) :
    Read.val_main_v22 (F := Ideal) T i = BitVec.ofNat 32 (k (pb (i 0)) (ph (i 0)) (pw (i 0))).val := by
  rw [Read.val_main_v22_apply, Read.val_main_v19_apply, Read.val_main_v18_apply, Read.val_main_c_6_apply, word_v1 T k hk]
  exact wrap_word _ _

theorem word_v23 (n : Fin 4194304) :
    Read.val_main_v23 (F := Ideal) T (ix2 n 0) = BitVec.ofNat 32 (k (pb n) (ph n) (pw n)).val :=
  (Read.val_main_v23_apply T (ix2 n 0)).trans (word_v22 T k hk _)

/-- The take's index column, before and after its wrap. -/
theorem word_v27 (j : S4194304x1.Idx) :
    Read.val_main_v27 (F := Ideal) T j = BitVec.ofNat 32 (k (pb (j 0)) (ph (j 0)) (pw (j 0))).val :=
  (Read.val_main_v27_apply T j).trans (word_v1 T k hk _)

theorem word_call2_v4 (j : S4194304x1.Idx) :
    Read.val_main_call2_v4 (F := Ideal) T j = BitVec.ofNat 32 (k (pb (j 0)) (ph (j 0)) (pw (j 0))).val := by
  rw [Read.val_main_call2_v4_apply, Read.val_main_call2_v1_apply, Read.val_main_call2_v0_apply,
    Read.val_main_call2_c_apply, word_v27 T k hk]
  exact wrap_word _ _

theorem word_call2_v5 (i : S4194304x1x1.Idx) :
    Read.val_main_call2_v5 (F := Ideal) T i = BitVec.ofNat 32 (k (pb (i 0)) (ph (i 0)) (pw (i 0))).val := by
  have e : Read.idx_main_call2_v5 i 0 = i 0 := Fin.ext (by
    have h1 : (i 1).val < 1 := (i 1).isLt
    have h2 : (i 2).val < 1 := (i 2).isLt
    show (((i 0).val * 1 + (i 1).val) * 1 + (i 2).val) / 1 = (i 0).val
    omega)
  rw [Read.val_main_call2_v5_apply, word_call2_v4 T k hk, e]

theorem word_call2_v5' (n : Fin 4194304) :
    Read.val_main_call2_v5 (F := Ideal) T (ix3 n 0 0) = BitVec.ofNat 32 (k (pb n) (ph n) (pw n)).val :=
  word_call2_v5 T k hk (ix3 n 0 0)

/-- The take's range test succeeds at every index … -/
theorem inrange_v11 (i : S4194304x1x1.Idx) : Read.val_main_call2_v11 (F := Ideal) T i = 1#1 := by
  rw [Read.val_main_call2_v11_apply, Read.val_main_call2_v7_apply, Read.val_main_call2_v10_apply,
    Read.val_main_call2_v6_apply, Read.val_main_call2_c_2_apply, Read.val_main_call2_v9_apply,
    Read.val_main_call2_v8_apply, Read.val_main_call2_c_1_apply, word_call2_v5 T k hk]
  exact inrange_word _

/-- … so its conjunction over the (one-element) index-vector axis is true. -/
theorem inrange_v12 (j : S4194304x1.Idx) : Read.val_main_call2_v12 (F := Ideal) T j = 1#1 := by
  have hR : S4194304x1x1.Reduces [2] S4194304x1 := by decide
  refine (Host.reduce_eq_fold_single IntOp.andi (Read.val_main_call2_v11 (F := Ideal) T) _
    reducesTo_S4194304x1x1_S4194304x1_d2 hR h_S_ j).trans ?_
  have e : (Read.val_main_call2_v11 (F := Ideal) T ∘ hR.lift j) = fun _ => (1#1 : BitVec 1) :=
    funext fun a => inrange_v11 T k hk _
  rw [e]
  exact fold_andi_ones _

/-! ## The histogram, the class weights and the gathered weights -/

/-- The scattered histogram at class `c` is the number of pixels of class `c`. -/
theorem counts (c : Fin 19) : Read.val_main_v10 (F := Ideal) T (ix1 c) = Cert.WCE.N k c := by
  refine (GatherScatter.vecScatterAdd_apply (φ := .f32) scatter_S19_S4194304x1_S4194304_n_0_0_1_wf
    (Read.val_main_v2 (F := Ideal)) (Read.val_main_v8 (F := Ideal) T) (Read.val_main_v9 (F := Ideal)) c).trans ?_
  rw [Read.val_main_v2_apply, Read.val_main_cst_apply, Ideal.ofBits_def, Ideal.ofBits_zero_f32, zero_add,
    Finset.sum_filter, ← count_eq k c, Finset.sum_filter]
  refine Finset.sum_congr rfl fun j _ => ?_
  rw [word_v8 T k hk, toInt_word, Read.val_main_v9_apply, Read.val_main_cst_1_apply, Ideal.ofBits_def,
    Ideal.ofBits_one_f32]
  exact if_congr ⟨fun h => Fin.ext (Int.ofNat.inj h), fun h => congrArg (fun x : Fin 19 => (x.val : ℤ)) h⟩ rfl rfl

/-- The class weight at `c` is the weight of its count. -/
theorem invfreq (c : Fin 19) : Read.val_main_v17 (F := Ideal) T (ix1 c) = Cert.WCE.wt (Cert.WCE.N k c) := by
  rw [Read.val_main_v17_apply, Read.val_main_v12_apply, Read.val_main_v16_apply, Read.val_main_v14_apply,
    counts T k hk, Read.val_main_v11_apply, Read.val_main_cst_2_apply, Read.val_main_v15_apply,
    Read.val_main_cst_4_apply, Read.val_main_v13_apply, Read.val_main_cst_3_apply, Read.val_main_call1_v1_apply,
    Read.val_main_call1_v0_apply, Read.val_main_cst_5_apply]
  simp only [Ideal.ofBits_def, Ideal.ofBits_zero_f32, Ideal.ofBits_one_f32]
  rfl

/-- The gathered weight at a position is the weight of the count of the pixel's class. -/
theorem weight (n : Fin 4194304) :
    Read.val_main_v24 (F := Ideal) T (ix1 n) = Cert.WCE.wt (Cert.WCE.N k (k (pb n) (ph n) (pw n))) := by
  refine (GatherScatter.vecGather_apply (by decide : 0 < 19) gather_S19_S4194304x1_S4194304_n_0_n_n_0_1_1_wf
    (Read.val_main_v17 (F := Ideal) T) (Read.val_main_v23 (F := Ideal) T) n).trans ?_
  refine (congrArg (fun i : Fin 19 => Read.val_main_v17 (F := Ideal) T (ix1 i)) (Fin.ext ?_)).trans
    (invfreq T k hk (k (pb n) (ph n) (pw n)))
  show min (Read.val_main_v23 (F := Ideal) T (ix2 n 0)).toInt.toNat (19 - 1) = (k (pb n) (ph n) (pw n)).val
  rw [word_v23 T k hk, toNat_word]
  exact Nat.min_eq_left (by have := (k (pb n) (ph n) (pw n)).isLt; omega)

end Words

/-! ## The log-softmax -/

section Logits
variable (X : (⟨S8x19x512x1024, .f32⟩ : BufTy).Contents (Elt Ideal))

/-- The maximum over the class axis is the pixel's running maximum. -/
theorem max_stage (b : Fin 8) (h : Fin 512) (w : Fin 1024) :
    Read.val_main_call0_v0 (F := Ideal) X (ix3 b h w) = Cert.WCE.pmax (fun c => X (ix4 b c h w)) := by
  have hR : S8x19x512x1024.Reduces [1] S8x512x1024 := by decide
  refine (Host.reduce_eq_fold_single (max : EReal → EReal → EReal) X _
    reducesTo_S8x19x512x1024_S8x512x1024_d1 hR h_S_ (ix3 b h w)).trans ?_
  have e : (X ∘ hR.lift (ix3 b h w)) = fun c : Fin 19 => X (ix4 b c h w) :=
    funext fun c => congrArg X (funext fun a => Fin.ext (by
      match a with | ⟨0, _⟩ => rfl | ⟨1, _⟩ => rfl | ⟨2, _⟩ => rfl | ⟨3, _⟩ => rfl))
  rw [e]
  exact (congrArg (fun z => (Finset.univ : Finset (Fin 19)).fold max z fun c => X (ix4 b c h w)) ofBits_ninf).trans
    (Cert.WCE.fold_max_eq_pmax _)

/-- The shifted logit. -/
theorem shift_stage (b : Fin 8) (c : Fin 19) (h : Fin 512) (w : Fin 1024) :
    Read.val_main_call0_v5 (F := Ideal) X (ix4 b c h w)
      = X (ix4 b c h w) - Cert.WCE.pmax (fun c' => X (ix4 b c' h w)) := by
  have e : Read.idx_main_call0_v3 (Read.idx_main_call0_v4 (ix4 b c h w)) = ix3 b h w :=
    funext fun a => Fin.ext (by match a with | ⟨0, _⟩ => rfl | ⟨1, _⟩ => rfl | ⟨2, _⟩ => rfl)
  rw [Read.val_main_call0_v5_apply, Read.val_main_call0_v4_apply, Read.val_main_call0_v3_apply, e,
    Read.val_main_call0_v2_apply, Read.val_main_call0_v1_apply, Read.val_main_call0_cst_0_apply, max_stage,
    Ideal.ofBits_def, ofBits_ninf]
  show X (ix4 b c h w) - max ⊥ (Cert.WCE.pmax fun c' => X (ix4 b c' h w)) = _
  rw [max_eq_right bot_le]

/-- The sum of the shifted exponentials over the class axis is the pixel's running sum. -/
theorem sumexp_stage (b : Fin 8) (h : Fin 512) (w : Fin 1024) :
    Read.val_main_call0_v7 (F := Ideal) X (ix3 b h w) = Cert.WCE.psum (fun c => X (ix4 b c h w)) := by
  have e : ∀ c : Fin 19, Read.idx_main_call0_v7 (ix3 b h w) c = ix4 b c h w := fun c =>
    funext fun a => Fin.ext (by match a with | ⟨0, _⟩ => rfl | ⟨1, _⟩ => rfl | ⟨2, _⟩ => rfl | ⟨3, _⟩ => rfl)
  rw [Read.val_main_call0_v7_apply, Read.val_main_call0_cst_1_apply, Ideal.ofBits_def, Ideal.ofBits_zero_f32, zero_add,
    ← Cert.WCE.sum_exp_eq_psum]
  refine Finset.sum_congr rfl fun c _ => ?_
  rw [e, Read.val_main_call0_v6_apply, shift_stage]
  rfl

/-- The log-softmax at `(b, c, h, w)`. -/
theorem logp_stage (b : Fin 8) (c : Fin 19) (h : Fin 512) (w : Fin 1024) :
    Read.val_main_v0 (F := Ideal) X (ix4 b c h w)
      = (X (ix4 b c h w) - Cert.WCE.pmax (fun c' => X (ix4 b c' h w)))
        - Ideal.log (Cert.WCE.psum (fun c' => X (ix4 b c' h w))) := by
  have e : Read.idx_main_call0_v8 (Read.idx_main_call0_v10 (ix4 b c h w)) = ix3 b h w :=
    funext fun a => Fin.ext (by match a with | ⟨0, _⟩ => rfl | ⟨1, _⟩ => rfl | ⟨2, _⟩ => rfl)
  rw [Read.val_main_v0_apply, shift_stage, Read.val_main_call0_v10_apply, Read.val_main_call0_v9_apply,
    Read.val_main_call0_v8_apply, e, sumexp_stage]
  rfl

/-- The class-minor flattening: row `n`, column `c` is the log-softmax of pixel `n` at class `c`. -/
theorem flat_logp (n : Fin 4194304) (c : Fin 19) :
    Read.val_main_v26 (F := Ideal) X (ix2 n c) = Read.val_main_v0 (F := Ideal) X (ix4 (pb n) c (ph n) (pw n)) := by
  have e : Read.idx_main_v25 (Read.idx_main_v26 (ix2 n c)) = ix4 (pb n) c (ph n) (pw n) :=
    funext fun a => Fin.ext (by
      have hn : n.val < 4194304 := n.isLt
      have hc : c.val < 19 := c.isLt
      match a with
      | ⟨0, _⟩ => show (n.val * 19 + c.val) / 9961472 = n.val / 524288; omega
      | ⟨1, _⟩ => show (n.val * 19 + c.val) % 19 = c.val; omega
      | ⟨2, _⟩ => show (n.val * 19 + c.val) / 19456 % 512 = n.val / 1024 % 512; omega
      | ⟨3, _⟩ => show (n.val * 19 + c.val) / 19 % 1024 = n.val % 1024; omega)
  rw [Read.val_main_v26_apply, Read.val_main_v25_apply, e]

end Logits

/-! ## The negative log-likelihood along the flat axis, and the result -/

section Result
variable (X : (⟨S8x19x512x1024, .f32⟩ : BufTy).Contents (Elt Ideal))
  (T : (⟨S8x512x1024, .i32⟩ : BufTy).Contents (Elt Ideal)) (k : Fin 8 → Fin 512 → Fin 1024 → Fin 19)
  (hk : ∀ b h w, T (ix3 b h w) = BitVec.ofNat 32 (k b h w).val)
include hk

/-- The value taken along the class axis at a position is the log-softmax at the pixel's own class. -/
theorem take_stage (n : Fin 4194304) :
    Read.val_main_v28 (F := Ideal) X T (ix2 n 0)
      = Read.val_main_v0 (F := Ideal) X (ix4 (pb n) (k (pb n) (ph n) (pw n)) (ph n) (pw n)) := by
  rw [Read.val_main_v28_apply, inrange_v12 T k hk, select_one]
  refine (TakeAlongRow.rowTake_apply gather_S4194304x19_S4194304x1x1_S4194304x1_n_1_0_0_1_2_11_wf (by decide : 0 < 19)
    (Read.val_main_v26 (F := Ideal) X) (Read.val_main_call2_v5 (F := Ideal) T) n 0).trans ?_
  refine (congrArg (fun i : Fin 19 => Read.val_main_v26 (F := Ideal) X (ix2 n i)) (Fin.ext ?_)).trans
    (flat_logp X n (k (pb n) (ph n) (pw n)))
  show min (Read.val_main_call2_v5 (F := Ideal) T (ix3 n 0 0)).toInt.toNat (19 - 1) = (k (pb n) (ph n) (pw n)).val
  rw [word_call2_v5' T k hk, toNat_word]
  exact Nat.min_eq_left (by have := (k (pb n) (ph n) (pw n)).isLt; omega)

/-- The negated take at a position is the pixel's negative log-likelihood. -/
theorem nll_stage (n : Fin 4194304) :
    Read.val_main_v30 (F := Ideal) X T (ix1 n)
      = Cert.WCE.nll (fun b c h w => X (ix4 b c h w)) k (pb n) (ph n) (pw n) := by
  have e : Read.idx_main_v29 (ix1 n) = ix2 n 0 :=
    funext fun a => Fin.ext (by match a with | ⟨0, _⟩ => exact Nat.div_one _ | ⟨1, _⟩ => rfl)
  rw [Read.val_main_v30_apply, Read.val_main_v29_apply, e, take_stage X T k hk, logp_stage]
  rfl

end Result

/-- The reference's result, as a function of its two argument arrays, is the class-balanced mean (per-pixel
    arrangement) — when every class word is the word of a class. -/
theorem value (X : (⟨S8x19x512x1024, .f32⟩ : BufTy).Contents (Elt Ideal)) (T : (⟨S8x512x1024, .i32⟩ : BufTy).Contents (Elt Ideal))
    (k : Fin 8 → Fin 512 → Fin 1024 → Fin 19) (hk : ∀ b h w, T (ix3 b h w) = BitVec.ofNat 32 (k b h w).val) :
    Cert.ReferenceIdeal.Read.val_main_v34 (F := Ideal) X T
      = fun _ => Cert.WCE.resultPix (fun b c h w => X (ix4 b c h w)) k := by
  funext i
  have e1 : ∀ n : Fin 4194304, Read.val_main_v31 (F := Ideal) X T (ix1 n)
      = Cert.WCE.wt (Cert.WCE.N k (k (pb n) (ph n) (pw n)))
        * Cert.WCE.nll (fun b c h w => X (ix4 b c h w)) k (pb n) (ph n) (pw n) := fun n => by
    rw [Read.val_main_v31_apply, weight T k hk, nll_stage X T k hk]
    rfl
  rw [Read.val_main_v34_apply, Read.val_main_v32_apply, Read.val_main_v33_apply, Read.val_main_cst_8_apply,
    Read.val_main_cst_9_apply, Ideal.ofBits_def, Ideal.ofBits_zero_f32, zero_add, zero_add,
    GatherScatter.sum_idx1, GatherScatter.sum_idx1]
  simp only [e1, weight T k hk]
  exact congrArg₂ Ideal.div
    (sum_pix fun b h w => Cert.WCE.wt (Cert.WCE.N k (k b h w)) * Cert.WCE.nll (fun b c h w => X (ix4 b c h w)) k b h w)
    (sum_pix fun b h w => Cert.WCE.wt (Cert.WCE.N k (k b h w)))

end Cert.ReferenceIdeal.RefValue

end
-- ==== Proof.KBody.lean ====
/-
  What one grid point's body leaves in the output block: the nineteen per-class updates of the block it finds,
  each adding one class's sum of negative log-likelihoods to row 0 and its pixel count to row 1, at the class's lane.
-/
import proofs.«425224_j89575837925692_2_alg».proof.Proof.Gen.KernelIdeal.Frame
import proofs.«425224_j89575837925692_2_alg».proof.Proof.Algebra
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx

namespace Cert.KernelIdeal.Body

open Cert.KernelIdeal Cert.KernelIdeal.Gen

variable {F : FTy → Type} [FloatOps F]

/-- The block of zeros the first point of a batch row stores before accumulating. -/
def zeroBlk : Vec F S1x8x128 .f32 := k0_pay2 (F := F)

theorem hz3 : (![0, 0, 0] : Fin 3 → Nat) = fun _ => 0 := funext fun a => by fin_cases a <;> rfl

/-- A load through the whole-shape rectangle of what a list of stores left, the LAST of them through the
    whole-shape rectangle, reads that last store's payload. -/
theorem readCov_cons_unit_zero {Val : EltTy → Type} {S : Shape} {e : EltTy} [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- The indicator of class word `cw` over the block's class words `t`, as floats. -/
def maskv (cw : BitVec 32) (t : IVec S128x1024 32) : FVec F S128x1024 .f32 :=
  sitofp .f32 (extui 32 (cmpi .eq t (broadcast S128x1024 cw)) natLt_1_32)

/-- The sum of a block over its lanes, then over its rows, as a one-by-one block. -/
def red2 (f : FVec F S128x1024 .f32) : FVec F S1x1 .f32 :=
  shapeCast S1x1 (multiReduction .add [0] S1 (shapeCast S128x1 (multiReduction .add [1] S128 f 0x00000000#32 reduces_S128x1024_S128 (.inl rfl) rfl) shapeCasts_S128_S128x1) 0x00000000#32 reduces_S128x1_S1 (.inl rfl) rfl) shapeCasts_S1_S1x1

/-- The indicator of (row `ρ0`, lane `cw`) over the eight-by-128 block, as floats. -/
def basis (ρ0 cw : BitVec 32) : FVec F S8x128 .f32 :=
  sitofp .f32 (extui 32 (andi (cmpi .eq (iota .tc S8x128 32 [0] iota_S8x128_d0_w32) (broadcast S8x128 ρ0)) (cmpi .eq (iota .tc S8x128 32 [1] iota_S8x128_d1_w32) (broadcast S8x128 cw))) natLt_1_32)

/-- One class's update of the output block: with `cw` the class word, `t` the block's class words and `nl` its
    negative log-likelihoods, add to row 0, lane `cw` the sum of `nl` over the pixels of class `cw`, and to row 1,
    lane `cw` their number. -/
def step (cw : BitVec 32) (t : IVec S128x1024 32) (nl : FVec F S128x1024 .f32) (o : Vec F S1x8x128 .f32) : Vec F S1x8x128 .f32 :=
  shapeCast S1x8x128 (addf (shapeCast S8x128 o shapeCasts_S1x8x128_S8x128)
    (addf (mulf (broadcastTo S8x128 (red2 (mulf (maskv cw t) nl)) broadcasts_S1x1_S8x128) (basis 0#32 cw))
      (mulf (broadcastTo S8x128 (red2 (maskv (F := F) cw t)) broadcasts_S1x1_S8x128) (basis 1#32 cw)))) shapeCasts_S8x128_S1x8x128

/-! ## Each class's store payload is one update

The generated arithmetic cuts the nineteen load-add-store rounds at arbitrary places; whatever the cut, the payload of
class `n`'s store over the block `o` it loaded is `step n t nl o`: the same operations in the same order. -/

theorem cls0 (t : IVec S128x1024 32) (M a b c d : FVec F S128x1024 .f32) (l16 l17 l18 : Vec F S1x1x128x1024 .f32) (o : Vec F S1x8x128 .f32) :
    k0_pay35 (iota .tc S8x128 32 [0] iota_S8x128_d0_w32) (iota .tc S8x128 32 [1] iota_S8x128_d1_w32) (k0_pay33 t) (k0_pay34 t M a b c d l16 l17 l18) o
      = step 0#32 t (k0_pay32 t M a b c d l16 l17 l18) o := rfl

theorem cls1 (t : IVec S128x1024 32) (nl : FVec F S128x1024 .f32) (o : Vec F S1x8x128 .f32) :
    k0_pay38 (iota .tc S8x128 32 [0] iota_S8x128_d0_w32) (iota .tc S8x128 32 [1] iota_S8x128_d1_w32) (k0_pay36 t) (k0_pay37 t nl) o = step 1#32 t nl o := rfl

theorem cls2 (t : IVec S128x1024 32) (nl : FVec F S128x1024 .f32) (o : Vec F S1x8x128 .f32) :
    k0_pay42 (iota .tc S8x128 32 [0] iota_S8x128_d0_w32) (iota .tc S8x128 32 [1] iota_S8x128_d1_w32) (k0_pay40 t nl) (k0_pay41 t) 0#32 o = step 2#32 t nl o := rfl

theorem cls3 (t : IVec S128x1024 32) (nl : FVec F S128x1024 .f32) (o : Vec F S1x8x128 .f32) :
    k0_pay47 (iota .tc S8x128 32 [0] iota_S8x128_d0_w32) (iota .tc S8x128 32 [1] iota_S8x128_d1_w32) (k0_pay44 t nl) (k0_pay45 t) (k0_pay46 (iota .tc S8x128 32 [0] iota_S8x128_d0_w32) (iota .tc S8x128 32 [1] iota_S8x128_d1_w32)) o = step 3#32 t nl o := rfl

theorem cls4 (t : IVec S128x1024 32) (nl : FVec F S128x1024 .f32) (o : Vec F S1x8x128 .f32) :
    k0_pay53 (iota .tc S8x128 32 [1] iota_S8x128_d1_w32) (k0_pay49 t nl) (k0_pay50 t) (k0_pay51 (iota .tc S8x128 32 [0] iota_S8x128_d0_w32) (iota .tc S8x128 32 [1] iota_S8x128_d1_w32)) (k0_pay52 (iota .tc S8x128 32 [0] iota_S8x128_d0_w32)) 4#32 o = step 4#32 t nl o := rfl

theorem cls5 (t : IVec S128x1024 32) (nl : FVec F S128x1024 .f32) (o : Vec F S1x8x128 .f32) :
    k0_pay59 (k0_pay55 t nl) (k0_pay56 t) (k0_pay57 (iota .tc S8x128 32 [0] iota_S8x128_d0_w32) (iota .tc S8x128 32 [1] iota_S8x128_d1_w32)) (k0_pay58 (iota .tc S8x128 32 [0] iota_S8x128_d0_w32) (iota .tc S8x128 32 [1] iota_S8x128_d1_w32)) o = step 5#32 t nl o := rfl

theorem cls6 (t : IVec S128x1024 32) (nl : FVec F S128x1024 .f32) (o : Vec F S1x8x128 .f32) :
    k0_pay65 (k0_pay61 t) (k0_pay62 (iota .tc S8x128 32 [0] iota_S8x128_d0_w32) (iota .tc S8x128 32 [1] iota_S8x128_d1_w32)) (k0_pay63 o) (k0_pay64 t nl (iota .tc S8x128 32 [0] iota_S8x128_d0_w32) (iota .tc S8x128 32 [1] iota_S8x128_d1_w32)) = step 6#32 t nl o := rfl

theorem cls7 (t : IVec S128x1024 32) (nl : FVec F S128x1024 .f32) (o : Vec F S1x8x128 .f32) :
    k0_pay67 (k0_pay66 t nl (iota .tc S8x128 32 [0] iota_S8x128_d0_w32) (iota .tc S8x128 32 [1] iota_S8x128_d1_w32) o) = step 7#32 t nl o := rfl

theorem cls8 (t : IVec S128x1024 32) (nl : FVec F S128x1024 .f32) (o : Vec F S1x8x128 .f32) :
    k0_pay68 t nl (iota .tc S8x128 32 [0] iota_S8x128_d0_w32) (iota .tc S8x128 32 [1] iota_S8x128_d1_w32) o = step 8#32 t nl o := rfl

theorem cls9 (t : IVec S128x1024 32) (nl : FVec F S128x1024 .f32) (o : Vec F S1x8x128 .f32) :
    k0_pay69 t nl (iota .tc S8x128 32 [0] iota_S8x128_d0_w32) (iota .tc S8x128 32 [1] iota_S8x128_d1_w32) 9#32 o = step 9#32 t nl o := rfl

theorem cls10 (t : IVec S128x1024 32) (nl : FVec F S128x1024 .f32) (o : Vec F S1x8x128 .f32) :
    k0_pay72 (iota .tc S8x128 32 [0] iota_S8x128_d0_w32) (iota .tc S8x128 32 [1] iota_S8x128_d1_w32) (k0_pay70 t) (k0_pay71 t nl) o = step 10#32 t nl o := rfl

theorem cls11 (t : IVec S128x1024 32) (nl : FVec F S128x1024 .f32) (o : Vec F S1x8x128 .f32) :
    k0_pay75 (iota .tc S8x128 32 [0] iota_S8x128_d0_w32) (iota .tc S8x128 32 [1] iota_S8x128_d1_w32) (k0_pay73 t) (k0_pay74 t nl) o = step 11#32 t nl o := rfl

theorem cls12 (t : IVec S128x1024 32) (nl : FVec F S128x1024 .f32) (o : Vec F S1x8x128 .f32) :
    k0_pay79 (iota .tc S8x128 32 [0] iota_S8x128_d0_w32) (iota .tc S8x128 32 [1] iota_S8x128_d1_w32) (k0_pay77 t nl) (k0_pay78 t) 0#32 o = step 12#32 t nl o := rfl

theorem cls13 (t : IVec S128x1024 32) (nl : FVec F S128x1024 .f32) (o : Vec F S1x8x128 .f32) :
    k0_pay84 (iota .tc S8x128 32 [0] iota_S8x128_d0_w32) (iota .tc S8x128 32 [1] iota_S8x128_d1_w32) (k0_pay81 t nl) (k0_pay82 t) (k0_pay83 (iota .tc S8x128 32 [0] iota_S8x128_d0_w32) (iota .tc S8x128 32 [1] iota_S8x128_d1_w32)) o = step 13#32 t nl o := rfl

theorem cls14 (t : IVec S128x1024 32) (nl : FVec F S128x1024 .f32) (o : Vec F S1x8x128 .f32) :
    k0_pay90 (iota .tc S8x128 32 [1] iota_S8x128_d1_w32) (k0_pay86 t nl) (k0_pay87 t) (k0_pay88 (iota .tc S8x128 32 [0] iota_S8x128_d0_w32) (iota .tc S8x128 32 [1] iota_S8x128_d1_w32)) (k0_pay89 (iota .tc S8x128 32 [0] iota_S8x128_d0_w32)) 14#32 o = step 14#32 t nl o := rfl

theorem cls15 (t : IVec S128x1024 32) (nl : FVec F S128x1024 .f32) (o : Vec F S1x8x128 .f32) :
    k0_pay96 (k0_pay92 t nl) (k0_pay93 t) (k0_pay94 (iota .tc S8x128 32 [0] iota_S8x128_d0_w32) (iota .tc S8x128 32 [1] iota_S8x128_d1_w32)) (k0_pay95 (iota .tc S8x128 32 [0] iota_S8x128_d0_w32) (iota .tc S8x128 32 [1] iota_S8x128_d1_w32)) o = step 15#32 t nl o := rfl

theorem cls16 (t : IVec S128x1024 32) (nl : FVec F S128x1024 .f32) (o : Vec F S1x8x128 .f32) :
    k0_pay102 (k0_pay98 t) (k0_pay99 (iota .tc S8x128 32 [0] iota_S8x128_d0_w32) (iota .tc S8x128 32 [1] iota_S8x128_d1_w32)) (k0_pay100 o) (k0_pay101 t nl (iota .tc S8x128 32 [0] iota_S8x128_d0_w32) (iota .tc S8x128 32 [1] iota_S8x128_d1_w32)) = step 16#32 t nl o := rfl

theorem cls17 (t : IVec S128x1024 32) (nl : FVec F S128x1024 .f32) (o : Vec F S1x8x128 .f32) :
    k0_pay104 (k0_pay103 t nl (iota .tc S8x128 32 [0] iota_S8x128_d0_w32) (iota .tc S8x128 32 [1] iota_S8x128_d1_w32) o) = step 17#32 t nl o := rfl

theorem cls18 (t : IVec S128x1024 32) (nl : FVec F S128x1024 .f32) (o : Vec F S1x8x128 .f32) :
    k0_pay1 (iota .tc S8x128 32 [1] iota_S8x128_d1_w32) (k0_pay106 t nl) (k0_pay107 t) (k0_pay108 (iota .tc S8x128 32 [0] iota_S8x128_d0_w32) (iota .tc S8x128 32 [1] iota_S8x128_d1_w32)) (k0_pay109 (iota .tc S8x128 32 [0] iota_S8x128_d0_w32)) k0_pay110 o = step 18#32 t nl o := rfl

/-- The block's class words, clamped to the class range. -/
def tcl (x1 : Vec F S1x128x1024 .i32) : IVec S128x1024 32 := k0_pay3 x1

/-- The block's largest logit per pixel: the running maximum over the nineteen class slabs. -/
def mx (x0 : Vec F S1x19x128x1024 .f32) : FVec F S128x1024 .f32 :=
  k0_pay6 (k0_pay5 (k0_pay4 (View.ld x0 (Rect.unit (s := S1x19x128x1024) ![0, 0, 0, 0] S1x1x128x1024.size inb_S1x19x128x1024_S1x1x128x1024_0_0_0_0)) (View.ld x0 (Rect.unit (s := S1x19x128x1024) ![0, 1, 0, 0] S1x1x128x1024.size inb_S1x19x128x1024_S1x1x128x1024_0_1_0_0)) (View.ld x0 (Rect.unit (s := S1x19x128x1024) ![0, 2, 0, 0] S1x1x128x1024.size inb_S1x19x128x1024_S1x1x128x1024_0_2_0_0)) (View.ld x0 (Rect.unit (s := S1x19x128x1024) ![0, 3, 0, 0] S1x1x128x1024.size inb_S1x19x128x1024_S1x1x128x1024_0_3_0_0)) (View.ld x0 (Rect.unit (s := S1x19x128x1024) ![0, 4, 0, 0] S1x1x128x1024.size inb_S1x19x128x1024_S1x1x128x1024_0_4_0_0)) (View.ld x0 (Rect.unit (s := S1x19x128x1024) ![0, 5, 0, 0] S1x1x128x1024.size inb_S1x19x128x1024_S1x1x128x1024_0_5_0_0))) (View.ld x0 (Rect.unit (s := S1x19x128x1024) ![0, 6, 0, 0] S1x1x128x1024.size inb_S1x19x128x1024_S1x1x128x1024_0_6_0_0)) (View.ld x0 (Rect.unit (s := S1x19x128x1024) ![0, 7, 0, 0] S1x1x128x1024.size inb_S1x19x128x1024_S1x1x128x1024_0_7_0_0)) (View.ld x0 (Rect.unit (s := S1x19x128x1024) ![0, 8, 0, 0] S1x1x128x1024.size inb_S1x19x128x1024_S1x1x128x1024_0_8_0_0)) (View.ld x0 (Rect.unit (s := S1x19x128x1024) ![0, 9, 0, 0] S1x1x128x1024.size inb_S1x19x128x1024_S1x1x128x1024_0_9_0_0)) (View.ld x0 (Rect.unit (s := S1x19x128x1024) ![0, 10, 0, 0] S1x1x128x1024.size inb_S1x19x128x1024_S1x1x128x1024_0_10_0_0)) (View.ld x0 (Rect.unit (s := S1x19x128x1024) ![0, 11, 0, 0] S1x1x128x1024.size inb_S1x19x128x1024_S1x1x128x1024_0_11_0_0)) (View.ld x0 (Rect.unit (s := S1x19x128x1024) ![0, 12, 0, 0] S1x1x128x1024.size inb_S1x19x128x1024_S1x1x128x1024_0_12_0_0)) (View.ld x0 (Rect.unit (s := S1x19x128x1024) ![0, 13, 0, 0] S1x1x128x1024.size inb_S1x19x128x1024_S1x1x128x1024_0_13_0_0))) (View.ld x0 (Rect.unit (s := S1x19x128x1024) ![0, 14, 0, 0] S1x1x128x1024.size inb_S1x19x128x1024_S1x1x128x1024_0_14_0_0)) (View.ld x0 (Rect.unit (s := S1x19x128x1024) ![0, 15, 0, 0] S1x1x128x1024.size inb_S1x19x128x1024_S1x1x128x1024_0_15_0_0)) (View.ld x0 (Rect.unit (s := S1x19x128x1024) ![0, 16, 0, 0] S1x1x128x1024.size inb_S1x19x128x1024_S1x1x128x1024_0_16_0_0)) (View.ld x0 (Rect.unit (s := S1x19x128x1024) ![0, 17, 0, 0] S1x1x128x1024.size inb_S1x19x128x1024_S1x1x128x1024_0_17_0_0)) (View.ld x0 (Rect.unit (s := S1x19x128x1024) ![0, 18, 0, 0] S1x1x128x1024.size inb_S1x19x128x1024_S1x1x128x1024_0_18_0_0))

/-- The block's negative log-likelihood per pixel: the generated arithmetic (running maximum, running sum of shifted
    exponentials, the select chain picking the target logit, then `0 - ((target - max) - log sum)`) composed in
    dataflow order over the nineteen class slabs of `x0`. -/
def nllv (x0 : Vec F S1x19x128x1024 .f32) (x1 : Vec F S1x128x1024 .i32) : FVec F S128x1024 .f32 :=
  let t := tcl x1
  let v49 := k0_pay5 (k0_pay4 (View.ld x0 (Rect.unit (s := S1x19x128x1024) ![0, 0, 0, 0] S1x1x128x1024.size inb_S1x19x128x1024_S1x1x128x1024_0_0_0_0)) (View.ld x0 (Rect.unit (s := S1x19x128x1024) ![0, 1, 0, 0] S1x1x128x1024.size inb_S1x19x128x1024_S1x1x128x1024_0_1_0_0)) (View.ld x0 (Rect.unit (s := S1x19x128x1024) ![0, 2, 0, 0] S1x1x128x1024.size inb_S1x19x128x1024_S1x1x128x1024_0_2_0_0)) (View.ld x0 (Rect.unit (s := S1x19x128x1024) ![0, 3, 0, 0] S1x1x128x1024.size inb_S1x19x128x1024_S1x1x128x1024_0_3_0_0)) (View.ld x0 (Rect.unit (s := S1x19x128x1024) ![0, 4, 0, 0] S1x1x128x1024.size inb_S1x19x128x1024_S1x1x128x1024_0_4_0_0)) (View.ld x0 (Rect.unit (s := S1x19x128x1024) ![0, 5, 0, 0] S1x1x128x1024.size inb_S1x19x128x1024_S1x1x128x1024_0_5_0_0))) (View.ld x0 (Rect.unit (s := S1x19x128x1024) ![0, 6, 0, 0] S1x1x128x1024.size inb_S1x19x128x1024_S1x1x128x1024_0_6_0_0)) (View.ld x0 (Rect.unit (s := S1x19x128x1024) ![0, 7, 0, 0] S1x1x128x1024.size inb_S1x19x128x1024_S1x1x128x1024_0_7_0_0)) (View.ld x0 (Rect.unit (s := S1x19x128x1024) ![0, 8, 0, 0] S1x1x128x1024.size inb_S1x19x128x1024_S1x1x128x1024_0_8_0_0)) (View.ld x0 (Rect.unit (s := S1x19x128x1024) ![0, 9, 0, 0] S1x1x128x1024.size inb_S1x19x128x1024_S1x1x128x1024_0_9_0_0)) (View.ld x0 (Rect.unit (s := S1x19x128x1024) ![0, 10, 0, 0] S1x1x128x1024.size inb_S1x19x128x1024_S1x1x128x1024_0_10_0_0)) (View.ld x0 (Rect.unit (s := S1x19x128x1024) ![0, 11, 0, 0] S1x1x128x1024.size inb_S1x19x128x1024_S1x1x128x1024_0_11_0_0)) (View.ld x0 (Rect.unit (s := S1x19x128x1024) ![0, 12, 0, 0] S1x1x128x1024.size inb_S1x19x128x1024_S1x1x128x1024_0_12_0_0)) (View.ld x0 (Rect.unit (s := S1x19x128x1024) ![0, 13, 0, 0] S1x1x128x1024.size inb_S1x19x128x1024_S1x1x128x1024_0_13_0_0))
  let M := mx x0
  let v74 := k0_pay7 t (View.ld x0 (Rect.unit (s := S1x19x128x1024) ![0, 0, 0, 0] S1x1x128x1024.size inb_S1x19x128x1024_S1x1x128x1024_0_0_0_0))
  let v76 := k0_pay8 (View.ld x0 (Rect.unit (s := S1x19x128x1024) ![0, 1, 0, 0] S1x1x128x1024.size inb_S1x19x128x1024_S1x1x128x1024_0_1_0_0))
  let v79 := k0_pay9 v49 (View.ld x0 (Rect.unit (s := S1x19x128x1024) ![0, 14, 0, 0] S1x1x128x1024.size inb_S1x19x128x1024_S1x1x128x1024_0_14_0_0)) (View.ld x0 (Rect.unit (s := S1x19x128x1024) ![0, 15, 0, 0] S1x1x128x1024.size inb_S1x19x128x1024_S1x1x128x1024_0_15_0_0)) (View.ld x0 (Rect.unit (s := S1x19x128x1024) ![0, 16, 0, 0] S1x1x128x1024.size inb_S1x19x128x1024_S1x1x128x1024_0_16_0_0)) (View.ld x0 (Rect.unit (s := S1x19x128x1024) ![0, 17, 0, 0] S1x1x128x1024.size inb_S1x19x128x1024_S1x1x128x1024_0_17_0_0)) (View.ld x0 (Rect.unit (s := S1x19x128x1024) ![0, 18, 0, 0] S1x1x128x1024.size inb_S1x19x128x1024_S1x1x128x1024_0_18_0_0)) (View.ld x0 (Rect.unit (s := S1x19x128x1024) ![0, 0, 0, 0] S1x1x128x1024.size inb_S1x19x128x1024_S1x1x128x1024_0_0_0_0)) (View.ld x0 (Rect.unit (s := S1x19x128x1024) ![0, 1, 0, 0] S1x1x128x1024.size inb_S1x19x128x1024_S1x1x128x1024_0_1_0_0))
  let v111 := k0_pay14 M v79 (View.ld x0 (Rect.unit (s := S1x19x128x1024) ![0, 2, 0, 0] S1x1x128x1024.size inb_S1x19x128x1024_S1x1x128x1024_0_2_0_0)) (View.ld x0 (Rect.unit (s := S1x19x128x1024) ![0, 3, 0, 0] S1x1x128x1024.size inb_S1x19x128x1024_S1x1x128x1024_0_3_0_0)) (View.ld x0 (Rect.unit (s := S1x19x128x1024) ![0, 4, 0, 0] S1x1x128x1024.size inb_S1x19x128x1024_S1x1x128x1024_0_4_0_0)) (View.ld x0 (Rect.unit (s := S1x19x128x1024) ![0, 5, 0, 0] S1x1x128x1024.size inb_S1x19x128x1024_S1x1x128x1024_0_5_0_0))
  let v114 := k0_pay15 t v74 v76 (View.ld x0 (Rect.unit (s := S1x19x128x1024) ![0, 2, 0, 0] S1x1x128x1024.size inb_S1x19x128x1024_S1x1x128x1024_0_2_0_0)) (View.ld x0 (Rect.unit (s := S1x19x128x1024) ![0, 3, 0, 0] S1x1x128x1024.size inb_S1x19x128x1024_S1x1x128x1024_0_3_0_0)) (View.ld x0 (Rect.unit (s := S1x19x128x1024) ![0, 4, 0, 0] S1x1x128x1024.size inb_S1x19x128x1024_S1x1x128x1024_0_4_0_0)) (View.ld x0 (Rect.unit (s := S1x19x128x1024) ![0, 5, 0, 0] S1x1x128x1024.size inb_S1x19x128x1024_S1x1x128x1024_0_5_0_0))
  let v146 := k0_pay20 t v114 (View.ld x0 (Rect.unit (s := S1x19x128x1024) ![0, 6, 0, 0] S1x1x128x1024.size inb_S1x19x128x1024_S1x1x128x1024_0_6_0_0)) (View.ld x0 (Rect.unit (s := S1x19x128x1024) ![0, 7, 0, 0] S1x1x128x1024.size inb_S1x19x128x1024_S1x1x128x1024_0_7_0_0)) (View.ld x0 (Rect.unit (s := S1x19x128x1024) ![0, 8, 0, 0] S1x1x128x1024.size inb_S1x19x128x1024_S1x1x128x1024_0_8_0_0)) (View.ld x0 (Rect.unit (s := S1x19x128x1024) ![0, 9, 0, 0] S1x1x128x1024.size inb_S1x19x128x1024_S1x1x128x1024_0_9_0_0))
  let v148 := k0_pay21 (View.ld x0 (Rect.unit (s := S1x19x128x1024) ![0, 10, 0, 0] S1x1x128x1024.size inb_S1x19x128x1024_S1x1x128x1024_0_10_0_0))
  let v151 := k0_pay22 M v111 (View.ld x0 (Rect.unit (s := S1x19x128x1024) ![0, 6, 0, 0] S1x1x128x1024.size inb_S1x19x128x1024_S1x1x128x1024_0_6_0_0)) (View.ld x0 (Rect.unit (s := S1x19x128x1024) ![0, 7, 0, 0] S1x1x128x1024.size inb_S1x19x128x1024_S1x1x128x1024_0_7_0_0)) (View.ld x0 (Rect.unit (s := S1x19x128x1024) ![0, 8, 0, 0] S1x1x128x1024.size inb_S1x19x128x1024_S1x1x128x1024_0_8_0_0)) (View.ld x0 (Rect.unit (s := S1x19x128x1024) ![0, 9, 0, 0] S1x1x128x1024.size inb_S1x19x128x1024_S1x1x128x1024_0_9_0_0)) (View.ld x0 (Rect.unit (s := S1x19x128x1024) ![0, 10, 0, 0] S1x1x128x1024.size inb_S1x19x128x1024_S1x1x128x1024_0_10_0_0))
  let v153 := k0_pay23 t
  let v183 := k0_pay28 M v151 (View.ld x0 (Rect.unit (s := S1x19x128x1024) ![0, 11, 0, 0] S1x1x128x1024.size inb_S1x19x128x1024_S1x1x128x1024_0_11_0_0)) (View.ld x0 (Rect.unit (s := S1x19x128x1024) ![0, 12, 0, 0] S1x1x128x1024.size inb_S1x19x128x1024_S1x1x128x1024_0_12_0_0)) (View.ld x0 (Rect.unit (s := S1x19x128x1024) ![0, 13, 0, 0] S1x1x128x1024.size inb_S1x19x128x1024_S1x1x128x1024_0_13_0_0)) (View.ld x0 (Rect.unit (s := S1x19x128x1024) ![0, 14, 0, 0] S1x1x128x1024.size inb_S1x19x128x1024_S1x1x128x1024_0_14_0_0))
  let v186 := k0_pay29 t v146 v148 v153 (View.ld x0 (Rect.unit (s := S1x19x128x1024) ![0, 11, 0, 0] S1x1x128x1024.size inb_S1x19x128x1024_S1x1x128x1024_0_11_0_0)) (View.ld x0 (Rect.unit (s := S1x19x128x1024) ![0, 12, 0, 0] S1x1x128x1024.size inb_S1x19x128x1024_S1x1x128x1024_0_12_0_0)) (View.ld x0 (Rect.unit (s := S1x19x128x1024) ![0, 13, 0, 0] S1x1x128x1024.size inb_S1x19x128x1024_S1x1x128x1024_0_13_0_0)) (View.ld x0 (Rect.unit (s := S1x19x128x1024) ![0, 14, 0, 0] S1x1x128x1024.size inb_S1x19x128x1024_S1x1x128x1024_0_14_0_0))
  let v188 := k0_pay30 (View.ld x0 (Rect.unit (s := S1x19x128x1024) ![0, 15, 0, 0] S1x1x128x1024.size inb_S1x19x128x1024_S1x1x128x1024_0_15_0_0))
  let v189 := k0_pay31 M (View.ld x0 (Rect.unit (s := S1x19x128x1024) ![0, 15, 0, 0] S1x1x128x1024.size inb_S1x19x128x1024_S1x1x128x1024_0_15_0_0))
  k0_pay32 t M v183 v186 v188 v189 (View.ld x0 (Rect.unit (s := S1x19x128x1024) ![0, 16, 0, 0] S1x1x128x1024.size inb_S1x19x128x1024_S1x1x128x1024_0_16_0_0)) (View.ld x0 (Rect.unit (s := S1x19x128x1024) ![0, 17, 0, 0] S1x1x128x1024.size inb_S1x19x128x1024_S1x1x128x1024_0_17_0_0)) (View.ld x0 (Rect.unit (s := S1x19x128x1024) ![0, 18, 0, 0] S1x1x128x1024.size inb_S1x19x128x1024_S1x1x128x1024_0_18_0_0))

/-- The class numbers, in the order the body visits them. -/
def classNums : List Nat := [0, 1, 2, 3, 4, 5, 6, 7, 8, 9, 10, 11, 12, 13, 14, 15, 16, 17, 18]

/-- What the nineteen per-class updates make of an output block `o`, given the point's logits block `x0`
    and class block `x1`. -/
def upd (x0 : Vec F S1x19x128x1024 .f32) (x1 : Vec F S1x128x1024 .i32) (o : Vec F S1x8x128 .f32) : Vec F S1x8x128 .f32 :=
  classNums.foldl (fun o n => step (BitVec.ofNat 32 n) (tcl x1) (nllv x0 x1) o) o

/-- At the first point of a batch row the body leaves the updates of the zero block. -/
theorem out_A (c : Dev nD) (i : grid0.Coords) (arg2 : Memref sig .tc .vmem S1x19x128x1024 .f32) (harg2 : arg2.IsWhole)
    (arg3 : Memref sig .tc .vmem S1x128x1024 .i32) (harg3 : arg3.IsWhole) (arg4 : Memref sig .tc .vmem S1x8x128 .f32)
    (harg4 : arg4.IsWhole) (hc0 : cond0_0 i) (x0 : Vec F S1x19x128x1024 .f32) (x1 : Vec F S1x128x1024 .i32) :
    out0_A_2 c i arg2 harg2 arg3 harg3 arg4 harg4 hc0 x0 x1 = upd x0 x1 zeroBlk := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S1x8x128) hz3]
  simp only [View.readAt_eq_ld, harg2.read_unread, harg3.read_unread, View.ld_unit_zero (S := S1x128x1024) hz3,
    readCov_cons_unit_zero (S := S1x8x128) _ hz3, View.readCov_unit_zero (S := S1x8x128) _ hz3, cls0, cls1, cls2, cls3, cls4, cls5, cls6, cls7, cls8, cls9, cls10, cls11, cls12, cls13, cls14, cls15, cls16, cls17, cls18]
  rfl

/-- At a later point the body leaves the updates of what the point before left. -/
theorem out_B (c : Dev nD) (i : grid0.Coords) (arg2 : Memref sig .tc .vmem S1x19x128x1024 .f32) (harg2 : arg2.IsWhole)
    (arg3 : Memref sig .tc .vmem S1x128x1024 .i32) (harg3 : arg3.IsWhole) (arg4 : Memref sig .tc .vmem S1x8x128 .f32)
    (harg4 : arg4.IsWhole) (hc0 : ¬cond0_0 i) (x0 : Vec F S1x19x128x1024 .f32) (x1 : Vec F S1x128x1024 .i32)
    (xo2 : Vec F S1x8x128 .f32) :
    out0_B_2 c i arg2 harg2 arg3 harg3 arg4 harg4 hc0 x0 x1 xo2 = upd x0 x1 xo2 := by
  unfold out0_B_2
  rw [View.read_writes_eq_canon _ _ _ (cover0_B_2 c i arg2 harg2 arg3 harg3 arg4 harg4 hc0 x0 x1 xo2)]
  unfold kernelRun0_B
  dsimp only
  sl_unfold_words
  rw [View.canon_cons_unit_zero (S := S1x8x128) hz3]
  simp only [View.readAt_eq_ld, harg2.read_unread, harg3.read_unread, harg4.read_unread, View.ld_unit_zero (S := S1x128x1024) hz3,
    View.ld_unit_zero (S := S1x8x128) hz3, readCov_cons_unit_zero (S := S1x8x128) _ hz3, cls0, cls1, cls2, cls3, cls4, cls5, cls6, cls7, cls8, cls9, cls10, cls11, cls12, cls13, cls14, cls15, cls16, cls17, cls18]
  rfl

/-! ## Reading the block at an index, at the extended reals -/

theorem cmpi_at {s : Shape} {w : Nat} (p : CmpIPredicate) (a b : IVec s w) (i : s.Idx) : cmpi p a b i = IntOp.cmpi p (a i) (b i) := rfl
theorem andi_at {s : Shape} {w : Nat} (a b : IVec s w) (i : s.Idx) : andi a b i = IntOp.andi (a i) (b i) := rfl
theorem maxsi_at {s : Shape} {w : Nat} (a b : IVec s w) (i : s.Idx) : maxsi a b i = IntOp.maxsi (a i) (b i) := rfl
theorem minsi_at {s : Shape} {w : Nat} (a b : IVec s w) (i : s.Idx) : minsi a b i = IntOp.minsi (a i) (b i) := rfl
theorem exp_at {s : Shape} {φ : FTy} (a : FVec Ideal s φ) (i : s.Idx) : exp a i = Ideal.exp (a i) := rfl
theorem log_at {s : Shape} {φ : FTy} (a : FVec Ideal s φ) (i : s.Idx) : log a i = Ideal.log (a i) := rfl

/-- The zero block is zero. -/
theorem zeroBlk_apply (y : S1x8x128.Idx) : zeroBlk (F := Ideal) y = 0 := by
  rw [eq_ix3 y]
  unfold zeroBlk k0_pay2
  refine (shapeCast_ab_1ab_apply _ _ _ _ _).trans ?_
  exact Ideal.ofBits_zero_f32

/-- The clamp leaves a class word as it is. -/
theorem tcl_apply (x1 : Vec Ideal S1x128x1024 .i32) (kb : Fin 128 → Fin 1024 → Fin 19)
    (hk : ∀ r w, x1 (ix3 0 r w) = BitVec.ofNat 32 (kb r w).val) (r : Fin 128) (w : Fin 1024) :
    tcl x1 (ix2 r w) = BitVec.ofNat 32 (kb r w).val := by
  unfold tcl k0_pay3
  show IntOp.minsi 18#32 (IntOp.maxsi 0#32 (shapeCast S128x1024 x1 shapeCasts_S1x128x1024_S128x1024 (ix2 r w))) = _
  rw [shapeCast_1ab_ab_apply, hk]
  exact Cert.WCE.clamp_ofNat (kb r w)

/-- Class slab `n` of the logits block, as a 128-by-1024 block, at pixel `(r, w)`. -/
theorem slab_apply (x0 : Vec Ideal S1x19x128x1024 .f32) (n : Nat) (hn : n < 19)
    (inb : ∀ a, (![0, n, 0, 0] : Fin 4 → Nat) a + S1x1x128x1024.size a ≤ S1x19x128x1024.size a) (r : Fin 128) (w : Fin 1024) :
    shapeCast S128x1024 (View.ld x0 (Rect.unit (s := S1x19x128x1024) ![0, n, 0, 0] S1x1x128x1024.size inb)) shapeCasts_S1x1x128x1024_S128x1024 (ix2 r w)
      = x0 (ix4 0 ⟨n, hn⟩ r w) := by
  refine (shapeCast_apply _ _ (ix2 r w) (ix4 0 0 r w) ?_).trans ?_
  · rw [Shape.rowMajor_val_four, Shape.rowMajor_val_two]
    show ((0 * 1 + 0) * 128 + r.val) * 1024 + w.val = r.val * 1024 + w.val
    omega
  · refine congrArg x0 (funext fun a => ?_)
    match a with
    | ⟨0, _⟩ => exact Fin.ext (show 0 + 1 * 0 = 0 from rfl)
    | ⟨1, _⟩ => exact Fin.ext (show n + 1 * 0 = n from rfl)
    | ⟨2, _⟩ => exact Fin.ext (show 0 + 1 * r.val = r.val by omega)
    | ⟨3, _⟩ => exact Fin.ext (show 0 + 1 * w.val = w.val by omega)

/-- The running maximum at a pixel is the pixel's largest logit. -/
theorem mx_apply (x0 : Vec Ideal S1x19x128x1024 .f32) (r : Fin 128) (w : Fin 1024) :
    mx x0 (ix2 r w) = Cert.WCE.pmax (fun c' => x0 (ix4 0 c' r w)) := by
  have hs0 := slab_apply x0 0 (by decide) inb_S1x19x128x1024_S1x1x128x1024_0_0_0_0 r w
  have hs1 := slab_apply x0 1 (by decide) inb_S1x19x128x1024_S1x1x128x1024_0_1_0_0 r w
  have hs2 := slab_apply x0 2 (by decide) inb_S1x19x128x1024_S1x1x128x1024_0_2_0_0 r w
  have hs3 := slab_apply x0 3 (by decide) inb_S1x19x128x1024_S1x1x128x1024_0_3_0_0 r w
  have hs4 := slab_apply x0 4 (by decide) inb_S1x19x128x1024_S1x1x128x1024_0_4_0_0 r w
  have hs5 := slab_apply x0 5 (by decide) inb_S1x19x128x1024_S1x1x128x1024_0_5_0_0 r w
  have hs6 := slab_apply x0 6 (by decide) inb_S1x19x128x1024_S1x1x128x1024_0_6_0_0 r w
  have hs7 := slab_apply x0 7 (by decide) inb_S1x19x128x1024_S1x1x128x1024_0_7_0_0 r w
  have hs8 := slab_apply x0 8 (by decide) inb_S1x19x128x1024_S1x1x128x1024_0_8_0_0 r w
  have hs9 := slab_apply x0 9 (by decide) inb_S1x19x128x1024_S1x1x128x1024_0_9_0_0 r w
  have hs10 := slab_apply x0 10 (by decide) inb_S1x19x128x1024_S1x1x128x1024_0_10_0_0 r w
  have hs11 := slab_apply x0 11 (by decide) inb_S1x19x128x1024_S1x1x128x1024_0_11_0_0 r w
  have hs12 := slab_apply x0 12 (by decide) inb_S1x19x128x1024_S1x1x128x1024_0_12_0_0 r w
  have hs13 := slab_apply x0 13 (by decide) inb_S1x19x128x1024_S1x1x128x1024_0_13_0_0 r w
  have hs14 := slab_apply x0 14 (by decide) inb_S1x19x128x1024_S1x1x128x1024_0_14_0_0 r w
  have hs15 := slab_apply x0 15 (by decide) inb_S1x19x128x1024_S1x1x128x1024_0_15_0_0 r w
  have hs16 := slab_apply x0 16 (by decide) inb_S1x19x128x1024_S1x1x128x1024_0_16_0_0 r w
  have hs17 := slab_apply x0 17 (by decide) inb_S1x19x128x1024_S1x1x128x1024_0_17_0_0 r w
  have hs18 := slab_apply x0 18 (by decide) inb_S1x19x128x1024_S1x1x128x1024_0_18_0_0 r w
  unfold mx k0_pay6 k0_pay5 k0_pay4
  simp only [maximumf_apply, hs0, hs1, hs2, hs3, hs4, hs5, hs6, hs7, hs8, hs9, hs10, hs11, hs12, hs13, hs14, hs15, hs16, hs17, hs18]
  rfl

/-- The block's negative log-likelihood at a pixel is the pixel's, at its own class. -/
theorem nllv_apply (x0 : Vec Ideal S1x19x128x1024 .f32) (x1 : Vec Ideal S1x128x1024 .i32) (kb : Fin 128 → Fin 1024 → Fin 19)
    (hk : ∀ r w, x1 (ix3 0 r w) = BitVec.ofNat 32 (kb r w).val) (r : Fin 128) (w : Fin 1024) :
    nllv x0 x1 (ix2 r w) = Cert.WCE.pnll (fun c' => x0 (ix4 0 c' r w)) (kb r w) := by
  have hs0 := slab_apply x0 0 (by decide) inb_S1x19x128x1024_S1x1x128x1024_0_0_0_0 r w
  have hs1 := slab_apply x0 1 (by decide) inb_S1x19x128x1024_S1x1x128x1024_0_1_0_0 r w
  have hs2 := slab_apply x0 2 (by decide) inb_S1x19x128x1024_S1x1x128x1024_0_2_0_0 r w
  have hs3 := slab_apply x0 3 (by decide) inb_S1x19x128x1024_S1x1x128x1024_0_3_0_0 r w
  have hs4 := slab_apply x0 4 (by decide) inb_S1x19x128x1024_S1x1x128x1024_0_4_0_0 r w
  have hs5 := slab_apply x0 5 (by decide) inb_S1x19x128x1024_S1x1x128x1024_0_5_0_0 r w
  have hs6 := slab_apply x0 6 (by decide) inb_S1x19x128x1024_S1x1x128x1024_0_6_0_0 r w
  have hs7 := slab_apply x0 7 (by decide) inb_S1x19x128x1024_S1x1x128x1024_0_7_0_0 r w
  have hs8 := slab_apply x0 8 (by decide) inb_S1x19x128x1024_S1x1x128x1024_0_8_0_0 r w
  have hs9 := slab_apply x0 9 (by decide) inb_S1x19x128x1024_S1x1x128x1024_0_9_0_0 r w
  have hs10 := slab_apply x0 10 (by decide) inb_S1x19x128x1024_S1x1x128x1024_0_10_0_0 r w
  have hs11 := slab_apply x0 11 (by decide) inb_S1x19x128x1024_S1x1x128x1024_0_11_0_0 r w
  have hs12 := slab_apply x0 12 (by decide) inb_S1x19x128x1024_S1x1x128x1024_0_12_0_0 r w
  have hs13 := slab_apply x0 13 (by decide) inb_S1x19x128x1024_S1x1x128x1024_0_13_0_0 r w
  have hs14 := slab_apply x0 14 (by decide) inb_S1x19x128x1024_S1x1x128x1024_0_14_0_0 r w
  have hs15 := slab_apply x0 15 (by decide) inb_S1x19x128x1024_S1x1x128x1024_0_15_0_0 r w
  have hs16 := slab_apply x0 16 (by decide) inb_S1x19x128x1024_S1x1x128x1024_0_16_0_0 r w
  have hs17 := slab_apply x0 17 (by decide) inb_S1x19x128x1024_S1x1x128x1024_0_17_0_0 r w
  have hs18 := slab_apply x0 18 (by decide) inb_S1x19x128x1024_S1x1x128x1024_0_18_0_0 r w
  have ht := tcl_apply x1 kb hk r w
  have hM := mx_apply x0 r w
  have hM6 : (k0_pay6 (k0_pay5 (k0_pay4 (View.ld x0 (Rect.unit (s := S1x19x128x1024) ![0, 0, 0, 0] S1x1x128x1024.size inb_S1x19x128x1024_S1x1x128x1024_0_0_0_0)) (View.ld x0 (Rect.unit (s := S1x19x128x1024) ![0, 1, 0, 0] S1x1x128x1024.size inb_S1x19x128x1024_S1x1x128x1024_0_1_0_0)) (View.ld x0 (Rect.unit (s := S1x19x128x1024) ![0, 2, 0, 0] S1x1x128x1024.size inb_S1x19x128x1024_S1x1x128x1024_0_2_0_0)) (View.ld x0 (Rect.unit (s := S1x19x128x1024) ![0, 3, 0, 0] S1x1x128x1024.size inb_S1x19x128x1024_S1x1x128x1024_0_3_0_0)) (View.ld x0 (Rect.unit (s := S1x19x128x1024) ![0, 4, 0, 0] S1x1x128x1024.size inb_S1x19x128x1024_S1x1x128x1024_0_4_0_0)) (View.ld x0 (Rect.unit (s := S1x19x128x1024) ![0, 5, 0, 0] S1x1x128x1024.size inb_S1x19x128x1024_S1x1x128x1024_0_5_0_0))) (View.ld x0 (Rect.unit (s := S1x19x128x1024) ![0, 6, 0, 0] S1x1x128x1024.size inb_S1x19x128x1024_S1x1x128x1024_0_6_0_0)) (View.ld x0 (Rect.unit (s := S1x19x128x1024) ![0, 7, 0, 0] S1x1x128x1024.size inb_S1x19x128x1024_S1x1x128x1024_0_7_0_0)) (View.ld x0 (Rect.unit (s := S1x19x128x1024) ![0, 8, 0, 0] S1x1x128x1024.size inb_S1x19x128x1024_S1x1x128x1024_0_8_0_0)) (View.ld x0 (Rect.unit (s := S1x19x128x1024) ![0, 9, 0, 0] S1x1x128x1024.size inb_S1x19x128x1024_S1x1x128x1024_0_9_0_0)) (View.ld x0 (Rect.unit (s := S1x19x128x1024) ![0, 10, 0, 0] S1x1x128x1024.size inb_S1x19x128x1024_S1x1x128x1024_0_10_0_0)) (View.ld x0 (Rect.unit (s := S1x19x128x1024) ![0, 11, 0, 0] S1x1x128x1024.size inb_S1x19x128x1024_S1x1x128x1024_0_11_0_0)) (View.ld x0 (Rect.unit (s := S1x19x128x1024) ![0, 12, 0, 0] S1x1x128x1024.size inb_S1x19x128x1024_S1x1x128x1024_0_12_0_0)) (View.ld x0 (Rect.unit (s := S1x19x128x1024) ![0, 13, 0, 0] S1x1x128x1024.size inb_S1x19x128x1024_S1x1x128x1024_0_13_0_0))) (View.ld x0 (Rect.unit (s := S1x19x128x1024) ![0, 14, 0, 0] S1x1x128x1024.size inb_S1x19x128x1024_S1x1x128x1024_0_14_0_0)) (View.ld x0 (Rect.unit (s := S1x19x128x1024) ![0, 15, 0, 0] S1x1x128x1024.size inb_S1x19x128x1024_S1x1x128x1024_0_15_0_0)) (View.ld x0 (Rect.unit (s := S1x19x128x1024) ![0, 16, 0, 0] S1x1x128x1024.size inb_S1x19x128x1024_S1x1x128x1024_0_16_0_0)) (View.ld x0 (Rect.unit (s := S1x19x128x1024) ![0, 17, 0, 0] S1x1x128x1024.size inb_S1x19x128x1024_S1x1x128x1024_0_17_0_0)) (View.ld x0 (Rect.unit (s := S1x19x128x1024) ![0, 18, 0, 0] S1x1x128x1024.size inb_S1x19x128x1024_S1x1x128x1024_0_18_0_0))) (ix2 r w)
      = Cert.WCE.pmax (fun c' => x0 (ix4 0 c' r w)) := mx_apply x0 r w
  have hpick := Cert.WCE.pick_ofNat (fun c' => x0 (ix4 0 c' r w)) (kb r w)
  unfold nllv k0_pay32 k0_pay31 k0_pay30 k0_pay29 k0_pay28 k0_pay27 k0_pay26 k0_pay25 k0_pay24 k0_pay23 k0_pay22 k0_pay21 k0_pay20 k0_pay19 k0_pay18 k0_pay17 k0_pay16 k0_pay15 k0_pay14 k0_pay13 k0_pay12 k0_pay11 k0_pay10 k0_pay9 k0_pay8 k0_pay7
  simp only [subf_apply, addf_apply, select_apply, exp_at, log_at, cmpi_at, broadcast_apply, hs0, hs1, hs2, hs3, hs4, hs5, hs6, hs7, hs8, hs9, hs10, hs11, hs12, hs13, hs14, hs15, hs16, hs17, hs18, ht, hM, hM6,
    Ideal.ofBits_def, Ideal.ofBits_zero_f32]
  unfold Cert.WCE.pnll
  beta_reduce
  rw [← hpick, sub_eq_add_neg (0 : EReal), zero_add]
  rfl

/-! ## One update at an index -/

/-- The equality test of two words, widened and read as a float. -/
def ind (a cw : BitVec 32) : EReal := ((((IntOp.cmpi .eq a cw).setWidth 32).toInt : ℝ) : EReal)

theorem maskv_apply (cw : BitVec 32) (t : IVec S128x1024 32) (i : S128x1024.Idx) :
    maskv (F := Ideal) cw t i = ind (t i) cw := rfl
/-- The two reductions of a block, lanes then rows, are the double sum over its pixels. -/
theorem red2_apply (f : FVec Ideal S128x1024 .f32) (u v : Fin 1) :
    red2 f (ix2 u v) = ∑ r : Fin 128, ∑ w : Fin 1024, f (ix2 r w) := by
  unfold red2
  refine (shapeCast_a_1a_apply _ _ u v).trans ?_
  refine (Ideal.multiReduction_add_single _ _ reduces_S128x1_S1 _ _ (ix1 v)).trans ?_
  show ∑ r : Fin 128, _ = _
  refine Finset.sum_congr rfl fun r _ => ?_
  refine (shapeCast_apply _ shapeCasts_S128_S128x1 _ (ix1 r) ?_).trans ?_
  · rw [Shape.rowMajor_val_one, Shape.rowMajor_val_two]
    show r.val = r.val * 1 + v.val
    have := v.isLt
    omega
  refine (Ideal.multiReduction_add_single _ _ reduces_S128x1024_S128 _ _ (ix1 r)).trans ?_
  show ∑ w : Fin 1024, _ = _
  refine Finset.sum_congr rfl fun w _ => ?_
  exact congrArg f (funext fun a => match a with | ⟨0, _⟩ => Fin.ext rfl | ⟨1, _⟩ => Fin.ext rfl)

/-- A one-by-one block broadcast over the eight-by-128 block reads its one entry everywhere. -/
theorem bcast11_apply (v : FVec Ideal S1x1 .f32) (ρ : Fin 8) (l : Fin 128) :
    broadcastTo S8x128 v broadcasts_S1x1_S8x128 (ix2 ρ l) = v (ix2 0 0) :=
  broadcastTo_apply v _ (ix2 ρ l) (ix2 0 0) (fun a => match a with | ⟨0, _⟩ => rfl | ⟨1, _⟩ => rfl)

theorem basis_apply (ρ0 cw : BitVec 32) (ρ : Fin 8) (l : Fin 128) :
    basis (F := Ideal) ρ0 cw (ix2 ρ l)
      = ((((IntOp.andi (IntOp.cmpi .eq (BitVec.ofNat 32 ρ.val) ρ0) (IntOp.cmpi .eq (BitVec.ofNat 32 l.val) cw)).setWidth 32).toInt : ℝ) : EReal) := by
  unfold basis
  show ((((IntOp.andi (IntOp.cmpi .eq (iota .tc S8x128 32 [0] iota_S8x128_d0_w32 (ix2 ρ l)) ρ0)
    (IntOp.cmpi .eq (iota .tc S8x128 32 [1] iota_S8x128_d1_w32 (ix2 ρ l)) cw)).setWidth 32).toInt : ℝ) : EReal) = _
  rw [iota_single_apply, iota_single_apply]

/-- One update read at row `ρ`, lane `l`: the block's entry plus the two reduced sums, each times its basis mask. -/
theorem step_apply (cw : BitVec 32) (t : IVec S128x1024 32) (nl : FVec Ideal S128x1024 .f32) (o : Vec Ideal S1x8x128 .f32)
    (ρ : Fin 8) (l : Fin 128) :
    step cw t nl o (ix3 0 ρ l) = o (ix3 0 ρ l)
      + (red2 (mulf (maskv cw t) nl) (ix2 0 0) * basis (F := Ideal) 0#32 cw (ix2 ρ l)
        + red2 (maskv (F := Ideal) cw t) (ix2 0 0) * basis (F := Ideal) 1#32 cw (ix2 ρ l)) := by
  unfold step
  refine (shapeCast_ab_1ab_apply _ _ 0 ρ l).trans ?_
  rw [addf_apply, addf_apply, mulf_apply, mulf_apply, shapeCast_1ab_ab_apply, bcast11_apply, bcast11_apply]

theorem andi_one_left (x : BitVec 1) : IntOp.andi 1#1 x = x := by
  rcases BitVec.eq_zero_or_eq_one x with h | h <;> subst h <;> decide

theorem andi_zero_left (x : BitVec 1) : IntOp.andi 0#1 x = 0#1 := by
  rcases BitVec.eq_zero_or_eq_one x with h | h <;> subst h <;> decide

/-- The indicator of two class words, by class numbers. -/
theorem ind_val (c : Fin 19) (n : Nat) (hn : n < 19) :
    ind (BitVec.ofNat 32 c.val) (BitVec.ofNat 32 n) = if c.val = n then 1 else 0 := by
  refine (Cert.WCE.ind_ofNat c ⟨n, hn⟩).trans ?_
  have hiff : (c = ⟨n, hn⟩) ↔ (c.val = n) := by
    constructor
    · intro h; rw [h]
    · intro h; exact Fin.ext h
  exact if_congr hiff rfl rfl

/-- The basis mask at lane `c` of row `ρ`: the row test times the indicator of the class. -/
theorem basis_val (ρ0 : BitVec 32) (n : Nat) (hn : n < 19) (ρ : Fin 8) (c : Fin 19) :
    basis (F := Ideal) ρ0 (BitVec.ofNat 32 n) (ix2 ρ (Cert.WCE.lane c))
      = if IntOp.cmpi .eq (BitVec.ofNat 32 ρ.val) ρ0 = 1#1 then (if n = c.val then 1 else 0) else 0 := by
  rw [basis_apply]
  rcases BitVec.eq_zero_or_eq_one (IntOp.cmpi .eq (BitVec.ofNat 32 ρ.val) ρ0) with h | h
  · rw [h, if_neg (by decide), andi_zero_left]
    have e : ((0#1 : BitVec 1).setWidth 32).toInt = 0 := by decide
    rw [e]
    simp
  · rw [h, if_pos rfl, andi_one_left]
    refine (ind_val c n hn).trans ?_
    exact if_congr eq_comm rfl rfl

/-- The row tests of the two basis masks at rows 0 and 1. -/
theorem row_tests : IntOp.cmpi .eq (BitVec.ofNat 32 (0 : Fin 8).val) 0#32 = 1#1
    ∧ ¬ IntOp.cmpi .eq (BitVec.ofNat 32 (0 : Fin 8).val) 1#32 = 1#1
    ∧ ¬ IntOp.cmpi .eq (BitVec.ofNat 32 (1 : Fin 8).val) 0#32 = 1#1
    ∧ IntOp.cmpi .eq (BitVec.ofNat 32 (1 : Fin 8).val) 1#32 = 1#1 := by decide

/-- The masked sum of a block over the pixels of class `n`. -/
theorem red2_mask_mul (n : Nat) (hn : n < 19) (t : IVec S128x1024 32) (nl : FVec Ideal S128x1024 .f32)
    (kb : Fin 128 → Fin 1024 → Fin 19) (ht : ∀ r w, t (ix2 r w) = BitVec.ofNat 32 (kb r w).val) :
    red2 (mulf (maskv (BitVec.ofNat 32 n) t) nl) (ix2 0 0)
      = ∑ r : Fin 128, ∑ w : Fin 1024, (if (kb r w).val = n then nl (ix2 r w) else 0) := by
  refine (red2_apply _ 0 0).trans (Finset.sum_congr rfl fun r _ => Finset.sum_congr rfl fun w _ => ?_)
  rw [mulf_apply, maskv_apply, ht, ind_val _ n hn, ite_mul, one_mul, zero_mul]

/-- The number of pixels of class `n`, as the sum of the mask. -/
theorem red2_mask (n : Nat) (hn : n < 19) (t : IVec S128x1024 32)
    (kb : Fin 128 → Fin 1024 → Fin 19) (ht : ∀ r w, t (ix2 r w) = BitVec.ofNat 32 (kb r w).val) :
    red2 (maskv (F := Ideal) (BitVec.ofNat 32 n) t) (ix2 0 0)
      = ∑ r : Fin 128, ∑ w : Fin 1024, (if (kb r w).val = n then (1 : EReal) else 0) := by
  refine (red2_apply _ 0 0).trans (Finset.sum_congr rfl fun r _ => Finset.sum_congr rfl fun w _ => ?_)
  rw [maskv_apply, ht, ind_val _ n hn]

/-- One class's update at row 0, lane `c`: class `c`'s own update adds its sum, the others add nothing. -/
theorem step_row0 (n : Nat) (hn : n < 19) (t : IVec S128x1024 32) (nl : FVec Ideal S128x1024 .f32) (o : Vec Ideal S1x8x128 .f32)
    (kb : Fin 128 → Fin 1024 → Fin 19) (ht : ∀ r w, t (ix2 r w) = BitVec.ofNat 32 (kb r w).val) (c : Fin 19) :
    step (BitVec.ofNat 32 n) t nl o (ix3 0 0 (Cert.WCE.lane c)) = o (ix3 0 0 (Cert.WCE.lane c))
      + if n = c.val then ∑ r : Fin 128, ∑ w : Fin 1024, (if (kb r w).val = n then nl (ix2 r w) else 0) else 0 := by
  rw [step_apply, basis_val _ n hn, basis_val _ n hn, if_pos row_tests.1, if_neg row_tests.2.1, mul_zero, add_zero,
    red2_mask_mul n hn t nl kb ht, mul_ite, mul_one, mul_zero]

/-- One class's update at row 1, lane `c`: class `c`'s own update adds its count, the others add nothing. -/
theorem step_row1 (n : Nat) (hn : n < 19) (t : IVec S128x1024 32) (nl : FVec Ideal S128x1024 .f32) (o : Vec Ideal S1x8x128 .f32)
    (kb : Fin 128 → Fin 1024 → Fin 19) (ht : ∀ r w, t (ix2 r w) = BitVec.ofNat 32 (kb r w).val) (c : Fin 19) :
    step (BitVec.ofNat 32 n) t nl o (ix3 0 1 (Cert.WCE.lane c)) = o (ix3 0 1 (Cert.WCE.lane c))
      + if n = c.val then ∑ r : Fin 128, ∑ w : Fin 1024, (if (kb r w).val = n then (1 : EReal) else 0) else 0 := by
  rw [step_apply, basis_val _ n hn, basis_val _ n hn, if_neg row_tests.2.2.1, if_pos row_tests.2.2.2, mul_zero, zero_add,
    red2_mask n hn t kb ht, mul_ite, mul_one, mul_zero]
/-! ## The nineteen updates at an index -/

/-- Updates that each add, at one index, a term that vanishes unless the class is `m`, add the list's terms. -/
theorem fold_at (t : IVec S128x1024 32) (nl : FVec Ideal S128x1024 .f32) (y : S1x8x128.Idx) (m : Nat) (A : Nat → EReal)
    (hstep : ∀ n, n < 19 → ∀ o : Vec Ideal S1x8x128 .f32, step (BitVec.ofNat 32 n) t nl o y = o y + if n = m then A n else 0) :
    ∀ (l : List Nat), (∀ n ∈ l, n < 19) → ∀ o : Vec Ideal S1x8x128 .f32,
      (l.foldl (fun o n => step (BitVec.ofNat 32 n) t nl o) o) y = o y + (l.map (fun n => if n = m then A n else 0)).sum
  | [], _, o => by simp
  | n :: l, hl, o => by
    rw [List.foldl_cons, fold_at t nl y m A hstep l (fun k hk => hl k (List.mem_cons_of_mem _ hk)),
      hstep n (hl n List.mem_cons_self) o, List.map_cons, List.sum_cons, add_assoc]

/-- Over the nineteen class numbers only class `m`'s term is left. -/
theorem sum_classNums (m : Nat) (hm : m < 19) (A : Nat → EReal) :
    (classNums.map (fun n => if n = m then A n else 0)).sum = A m := by
  unfold classNums
  interval_cases m <;> simp

theorem classNums_lt : ∀ n ∈ classNums, n < 19 := by
  intro n hn
  simp only [classNums, List.mem_cons, List.not_mem_nil, or_false] at hn
  omega

/-- Row 0, lane `c`: the updates add the negative log-likelihoods of the block's pixels of class `c`. -/
theorem upd_row0 (x0 : Vec Ideal S1x19x128x1024 .f32) (x1 : Vec Ideal S1x128x1024 .i32) (o : Vec Ideal S1x8x128 .f32)
    (kb : Fin 128 → Fin 1024 → Fin 19) (hk : ∀ r w, x1 (ix3 0 r w) = BitVec.ofNat 32 (kb r w).val) (c : Fin 19) :
    upd x0 x1 o (ix3 0 0 (Cert.WCE.lane c))
      = o (ix3 0 0 (Cert.WCE.lane c))
        + ∑ r : Fin 128, ∑ w : Fin 1024, if kb r w = c then Cert.WCE.pnll (fun c' => x0 (ix4 0 c' r w)) (kb r w) else 0 := by
  have h := fold_at (tcl x1) (nllv x0 x1) (ix3 0 0 (Cert.WCE.lane c)) c.val
    (fun n => ∑ r : Fin 128, ∑ w : Fin 1024, (if (kb r w).val = n then nllv x0 x1 (ix2 r w) else 0))
    (fun n hn o => step_row0 n hn (tcl x1) (nllv x0 x1) o kb (tcl_apply x1 kb hk) c) classNums classNums_lt o
  unfold upd
  rw [h, sum_classNums c.val c.isLt]
  congr 1
  refine Finset.sum_congr rfl fun r _ => Finset.sum_congr rfl fun w _ => ?_
  rw [nllv_apply x0 x1 kb hk r w]
  exact if_congr Fin.val_inj rfl rfl

/-- Row 1, lane `c`: the updates add the number of the block's pixels of class `c`. -/
theorem upd_row1 (x0 : Vec Ideal S1x19x128x1024 .f32) (x1 : Vec Ideal S1x128x1024 .i32) (o : Vec Ideal S1x8x128 .f32)
    (kb : Fin 128 → Fin 1024 → Fin 19) (hk : ∀ r w, x1 (ix3 0 r w) = BitVec.ofNat 32 (kb r w).val) (c : Fin 19) :
    upd x0 x1 o (ix3 0 1 (Cert.WCE.lane c))
      = o (ix3 0 1 (Cert.WCE.lane c)) + ∑ r : Fin 128, ∑ w : Fin 1024, if kb r w = c then (1 : EReal) else 0 := by
  have h := fold_at (tcl x1) (nllv x0 x1) (ix3 0 1 (Cert.WCE.lane c)) c.val
    (fun n => ∑ r : Fin 128, ∑ w : Fin 1024, (if (kb r w).val = n then (1 : EReal) else 0))
    (fun n hn o => step_row1 n hn (tcl x1) (nllv x0 x1) o kb (tcl_apply x1 kb hk) c) classNums classNums_lt o
  unfold upd
  rw [h, sum_classNums c.val c.isLt]
  congr 1
  refine Finset.sum_congr rfl fun r _ => Finset.sum_congr rfl fun w _ => ?_
  exact if_congr Fin.val_inj rfl rfl

end Cert.KernelIdeal.Body

end
-- ==== Proof.KAccum.lean ====
/-
  The output array after the region: rows 0 and 1 of each batch row hold the per-class sums.

  Grid point `t` works on batch row `t / 4` and on the tile `t % 4` of 128 image rows; the output block of a batch row
  is reset at its first point, every point adds its tile's per-class sums to it, and it is written to the array after the
  row's fourth point. So after point `n` the block's entry is the sum over the tiles `0 … n % 4` (induction on `n`),
  after the fourth point the sum over the whole image, and that is what the array holds.
-/
import proofs.«425224_j89575837925692_2_alg».proof.Proof.KBody

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen

variable (m : (ℓ : Loc nD τ sig) → Buf (Elt Ideal) ℓ)

/-- The logits array, by coordinates. -/
def xOf (c : Dev nD) : Fin 8 → Fin 19 → Fin 512 → Fin 1024 → EReal :=
  fun b c' h w => m ((c.tc : Thread nD τ).loc main_arg0) (ix4 b c' h w)

/-! ## The image rows in four tiles of 128 -/

/-- Row `r` of tile `j` is image row `128 j + r`. -/
def hrow (j : Fin 4) (r : Fin 128) : Fin 512 := ⟨128 * j.val + r.val, by have := j.isLt; have := r.isLt; omega⟩

/-- The 512 image rows are the 4 tiles of 128 rows. -/
def rowEquiv : Fin 4 × Fin 128 ≃ Fin 512 where
  toFun p := hrow p.1 p.2
  invFun h := (⟨h.val / 128, by have := h.isLt; omega⟩, ⟨h.val % 128, Nat.mod_lt _ (by decide)⟩)
  left_inv p := by
    have h1 := p.1.isLt
    have h2 := p.2.isLt
    refine Prod.ext (Fin.ext ?_) (Fin.ext ?_)
    · show (128 * p.1.val + p.2.val) / 128 = p.1.val
      omega
    · show (128 * p.1.val + p.2.val) % 128 = p.2.val
      omega
  right_inv h := Fin.ext (by show 128 * (h.val / 128) + h.val % 128 = h.val; omega)

/-- The sum of `f` over the pixels of tile `j`. -/
def tileSum (f : Fin 512 → Fin 1024 → EReal) (j : Fin 4) : EReal := ∑ r : Fin 128, ∑ w : Fin 1024, f (hrow j r) w

/-- The tile of grid point `n`. -/
def jFin (n : ℕ) : Fin 4 := ⟨n % 4, Nat.mod_lt _ (by decide)⟩
/-- The batch row of grid point `n`. -/
def bFin (n : ℕ) : Fin 8 := ⟨(n / 4) % 8, Nat.mod_lt _ (by decide)⟩

/-- The sum of `f` over tiles `0 … n`, in that order. -/
def partSum (f : Fin 512 → Fin 1024 → EReal) : ℕ → EReal
  | 0 => tileSum f 0
  | n + 1 => partSum f n + tileSum f (jFin (n + 1))

/-- All four tiles together are the whole image. -/
theorem partSum_three (f : Fin 512 → Fin 1024 → EReal) : partSum f 3 = ∑ h : Fin 512, ∑ w : Fin 1024, f h w := by
  rw [← Equiv.sum_comp rowEquiv (fun h => ∑ w : Fin 1024, f h w), Fintype.sum_prod_type, Fin.sum_univ_four]
  rfl

/-! ## The blocks the body reads -/

/-- The logits block at a grid point. -/
abbrev xblk (c : Dev nD) (t : Fin cfg0.N) : Vec Ideal S1x19x128x1024 .f32 := iblk m c 0 t
/-- The class block at a grid point. -/
abbrev kblk (c : Dev nD) (t : Fin cfg0.N) : Vec Ideal S1x128x1024 .i32 := iblk m c 1 t

/-- The block index of the logits window at point `t`: batch row `t / 4`, tile `t % 4`. -/
theorem idx0 : ∀ t : Fin cfg0.N, win0_0.index t 0 = t.val / 4 ∧ win0_0.index t 1 = 0 ∧ win0_0.index t 2 = t.val % 4 ∧ win0_0.index t 3 = 0 :=
  (by decide +kernel : ∀ t : Fin grid0.N, win0_0.index t 0 = t.val / 4 ∧ win0_0.index t 1 = 0 ∧ win0_0.index t 2 = t.val % 4 ∧ win0_0.index t 3 = 0)
/-- The block index of the class window at point `t`: batch row `t / 4`, tile `t % 4`. -/
theorem idx1 : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)
/-- The block index of the output window at point `t`: batch row `t / 4`. -/
theorem idx2 : ∀ t : Fin cfg0.N, win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0)

/-- The logits block at point `t` holds the logits of batch row `t / 4`, image rows `128 (t % 4) + r`. -/
theorem xblk_apply (c : Dev nD) (t : Fin cfg0.N) (c' : Fin 19) (r : Fin 128) (w : Fin 1024) :
    xblk m c t (ix4 0 c' r w) = xOf m c (bFin t.val) c' (hrow (jFin t.val) r) w := by
  obtain ⟨h0, h1, h2, h3⟩ := idx0 t
  have hN : t.val < 32 := lt_of_lt_of_eq t.isLt (show cfg0.N = 32 from N_0)
  unfold xblk iblk xOf
  rw [View.read_apply]
  show m ((c.tc : Thread nD τ).loc main_arg0) _ = m ((c.tc : Thread nD τ).loc main_arg0) _
  congr 1
  funext a
  apply Fin.ext
  match a with
  | ⟨0, _⟩ => show win0_0.index t 0 * 1 + 1 * 0 = (t.val / 4) % 8; rw [h0]; omega
  | ⟨1, _⟩ => show win0_0.index t 1 * 19 + 1 * c'.val = c'.val; rw [h1]; omega
  | ⟨2, _⟩ => show win0_0.index t 2 * 128 + 1 * r.val = 128 * (t.val % 4) + r.val; rw [h2]; omega
  | ⟨3, _⟩ => show win0_0.index t 3 * 1024 + 1 * w.val = w.val; rw [h3]; omega

/-- The class block at point `t` holds the class words of batch row `t / 4`, image rows `128 (t % 4) + r`. -/
theorem kblk_apply (c : Dev nD) (t : Fin cfg0.N) (r : Fin 128) (w : Fin 1024) :
    kblk m c t (ix3 0 r w) = m ((c.tc : Thread nD τ).loc main_arg1) (ix3 (bFin t.val) (hrow (jFin t.val) r) w) := by
  obtain ⟨h0, h1, h2⟩ := idx1 t
  have hN : t.val < 32 := lt_of_lt_of_eq t.isLt (show cfg0.N = 32 from N_0)
  unfold kblk iblk
  rw [View.read_apply]
  show m ((c.tc : Thread nD τ).loc main_arg1) _ = m ((c.tc : Thread nD τ).loc main_arg1) _
  congr 1
  funext a
  apply Fin.ext
  match a with
  | ⟨0, _⟩ => show win0_1.index t 0 * 1 + 1 * 0 = (t.val / 4) % 8; rw [h0]; omega
  | ⟨1, _⟩ => show win0_1.index t 1 * 128 + 1 * r.val = 128 * (t.val % 4) + r.val; rw [h1]; omega
  | ⟨2, _⟩ => show win0_1.index t 2 * 1024 + 1 * w.val = w.val; rw [h2]; omega

/-! ## The running sums in the output block -/

/-- At the first point of a batch row the output block is the updates of the zero block. -/
theorem oAt_A (c : Dev nD) (t : Fin cfg0.N) (h0 : t.val % 4 = 0) :
    outsAt0 m c t.val t.isLt = Body.upd (xblk m c t) (kblk m c t) Body.zeroBlk :=
  (outsAt0_A m c t h0).trans
    (Body.out_A (F := Ideal) c (grid0.coords t) (ms0_0 t) (hs0_0 t) (ms0_1 t) (hs0_1 t) (ms0_2 t) (hs0_2 t)
      ((hcond0_0 t).mpr h0) (xblk m c t) (kblk m c t))

/-- At a later point it is the updates of what the point before left. -/
theorem oAt_B (c : Dev nD) (t : Fin cfg0.N) (h0 : ¬t.val % 4 = 0) :
    outsAt0 m c t.val t.isLt
      = Body.upd (xblk m c t) (kblk m c t) (outsAt0 m c (t.val - 1) (Nat.lt_of_le_of_lt (Nat.sub_le _ _) t.isLt)) :=
  (outsAt0_B m c t h0).trans
    (Body.out_B (F := Ideal) c (grid0.coords t) (ms0_0 t) (hs0_0 t) (ms0_1 t) (hs0_1 t) (ms0_2 t) (hs0_2 t)
      (fun h => h0 ((hcond0_0 t).mp h)) (xblk m c t) (kblk m c t)
      (outsAt0 m c (t.val - 1) (Nat.lt_of_le_of_lt (Nat.sub_le _ _) t.isLt)))

/-- THE INVARIANT. If at every point the updates add to entry `(0, ρ, l)` the tile's sum of `g` (of the point's batch row),
    then after point `n` that entry is the sum of `g` over the tiles `0 … n % 4` of batch row `n / 4`. -/
theorem inv_gen (c : Dev nD) (ρ : Fin 8) (l : Fin 128) (g : Fin 8 → Fin 512 → Fin 1024 → EReal)
    (hstep : ∀ (n : ℕ) (hn : n < cfg0.N) (o : Vec Ideal S1x8x128 .f32),
      Body.upd (xblk m c ⟨n, hn⟩) (kblk m c ⟨n, hn⟩) o (ix3 0 ρ l) = o (ix3 0 ρ l) + tileSum (g (bFin n)) (jFin n)) :
    ∀ (n : ℕ) (hn : n < cfg0.N), outsAt0 m c n hn (ix3 0 ρ l) = partSum (g (bFin n)) (n % 4)
  | 0, hn => by
    refine (congrFun (oAt_A m c ⟨0, hn⟩ rfl) (ix3 0 ρ l)).trans ?_
    rw [hstep 0 hn Body.zeroBlk, Body.zeroBlk_apply, zero_add]
    rfl
  | n + 1, hn => by
    have ih := inv_gen c ρ l g hstep n (Nat.lt_of_succ_lt hn)
    by_cases h0 : (n + 1) % 4 = 0
    · refine (congrFun (oAt_A m c ⟨n + 1, hn⟩ h0) (ix3 0 ρ l)).trans ?_
      rw [hstep (n + 1) hn Body.zeroBlk, Body.zeroBlk_apply, zero_add, h0]
      show tileSum _ _ = tileSum _ 0
      congr 1
      exact Fin.ext h0
    · refine (congrFun (oAt_B m c ⟨n + 1, hn⟩ h0) (ix3 0 ρ l)).trans ?_
      rw [hstep (n + 1) hn]
      have e : (n + 1) % 4 = n % 4 + 1 := by omega
      have eb : bFin (n + 1) = bFin n := Fin.ext (by show ((n + 1) / 4) % 8 = (n / 4) % 8; omega)
      have ej : jFin (n + 1) = jFin (n % 4 + 1) := Fin.ext (by show (n + 1) % 4 = (n % 4 + 1) % 4; omega)
      rw [e, eb, ej]
      show outsAt0 m c n _ (ix3 0 ρ l) + _ = partSum _ (n % 4) + tileSum _ (jFin (n % 4 + 1))
      rw [ih]

/-- Row 0: the updates at point `n` add the tile's negative log-likelihoods of class `cl`. -/
theorem step0 (c : Dev nD) (k : Fin 8 → Fin 512 → Fin 1024 → Fin 19)
    (hk : ∀ b h w, m ((c.tc : Thread nD τ).loc main_arg1) (ix3 b h w) = BitVec.ofNat 32 (k b h w).val)
    (cl : Fin 19) (n : ℕ) (hn : n < cfg0.N) (o : Vec Ideal S1x8x128 .f32) :
    Body.upd (xblk m c ⟨n, hn⟩) (kblk m c ⟨n, hn⟩) o (ix3 0 0 (Cert.WCE.lane cl))
      = o (ix3 0 0 (Cert.WCE.lane cl))
        + tileSum (fun h w => if k (bFin n) h w = cl then Cert.WCE.nll (xOf m c) k (bFin n) h w else 0) (jFin n) := by
  rw [Body.upd_row0 (xblk m c ⟨n, hn⟩) (kblk m c ⟨n, hn⟩) o (fun r w => k (bFin n) (hrow (jFin n) r) w)
    (fun r w => (kblk_apply m c ⟨n, hn⟩ r w).trans (hk _ _ _)) cl]
  refine congrArg (fun z => o (ix3 0 0 (Cert.WCE.lane cl)) + z) ?_
  unfold tileSum
  refine Finset.sum_congr rfl fun r _ => Finset.sum_congr rfl fun w _ => ?_
  have e : (fun c' => xblk m c ⟨n, hn⟩ (ix4 0 c' r w)) = fun c' => xOf m c (bFin n) c' (hrow (jFin n) r) w :=
    funext fun c' => xblk_apply m c ⟨n, hn⟩ c' r w
  rw [e]
  rfl

/-- Row 1: the updates at point `n` add the tile's number of pixels of class `cl`. -/
theorem step1 (c : Dev nD) (k : Fin 8 → Fin 512 → Fin 1024 → Fin 19)
    (hk : ∀ b h w, m ((c.tc : Thread nD τ).loc main_arg1) (ix3 b h w) = BitVec.ofNat 32 (k b h w).val)
    (cl : Fin 19) (n : ℕ) (hn : n < cfg0.N) (o : Vec Ideal S1x8x128 .f32) :
    Body.upd (xblk m c ⟨n, hn⟩) (kblk m c ⟨n, hn⟩) o (ix3 0 1 (Cert.WCE.lane cl))
      = o (ix3 0 1 (Cert.WCE.lane cl))
        + tileSum (fun h w => if k (bFin n) h w = cl then (1 : EReal) else 0) (jFin n) := by
  rw [Body.upd_row1 (xblk m c ⟨n, hn⟩) (kblk m c ⟨n, hn⟩) o (fun r w => k (bFin n) (hrow (jFin n) r) w)
    (fun r w => (kblk_apply m c ⟨n, hn⟩ r w).trans (hk _ _ _)) cl]
  rfl

/-! ## The output array -/

/-- The whole output array: batch row `b` is what the output block holds after the row's last point. -/
def wholeArr (c : Dev nD) : Vec Ideal S8x8x128 .f32 := fun i =>
  outsAt0 m c (4 * (i 0).val + 3)
    (by rw [show cfg0.N = 32 from N_0]; have h : (i 0).val < 8 := (i 0).isLt; omega) (ix3 0 (i 1) (i 2))

/-- The output block after point `n` depends on `n` only. -/
theorem outsAt0_congr (c : Dev nD) {n n' : ℕ} (e : n = n') (hn : n < cfg0.N) (hn' : n' < cfg0.N) :
    outsAt0 m c n hn = outsAt0 m c n' hn' := by
  subst e
  rfl

/-- The whole array at an entry of batch row `t / 4`, for `t` the row's last point, is the block after `t`. -/
theorem wholeArr_read (c : Dev nD) (t : Fin cfg0.N) (h3 : t.val % 4 = 3) (y : S1x8x128.Idx) (i : S8x8x128.Idx)
    (h0 : (i 0).val = t.val / 4) (h1 : (i 1).val = (y 1).val) (h2 : (i 2).val = (y 2).val) :
    wholeArr m c i = outsAt0 m c t.val t.isLt y := by
  have e : 4 * (i 0).val + 3 = t.val := by rw [h0]; omega
  unfold wholeArr
  refine (congrFun (outsAt0_congr m c e _ t.isLt) _).trans ?_
  refine congrArg (outsAt0 m c t.val t.isLt) ?_
  funext a
  match a with
  | ⟨0, _⟩ => exact Fin.ext (by have hy : (y 0).val < 1 := (y 0).isLt; show 0 = (y 0).val; omega)
  | ⟨1, _⟩ => exact Fin.ext h1
  | ⟨2, _⟩ => exact Fin.ext h2

/-- What a batch row's last point writes back is that row of the whole array. -/
theorem flushed_eq (c : Dev nD) (t : Fin cfg0.N) (hf : (cfg0.win 2).flush t = true) :
    (dats m 0 c).flushed 2 t = ((cfg0.win 2).blk t).view.read (Elt Ideal) (wholeArr m c) := by
  have hN : t.val < 32 := lt_of_lt_of_eq t.isLt (show cfg0.N = 32 from N_0)
  have h3 : t.val % 4 = 3 := (flush0_2 t).mp hf
  obtain ⟨i0, i1, i2⟩ := idx2 t
  show (cfg0.win 2).cut (grid0.coords t) ((dats m 0 c).after 2 t) = _
  rw [after0_2]
  funext y
  rw [View.read_apply]
  refine (wholeArr_read m c t h3 ((cfg0.win 2).xinj (grid0.coords t) y) (((cfg0.win 2).blk t).view.emb y) ?_ ?_ ?_).symm
  · have hy : ((y : S1x8x128.Idx) 0).val < 1 := ((y : S1x8x128.Idx) 0).isLt
    show win0_2.index t 0 * 1 + 1 * ((y : S1x8x128.Idx) 0).val = t.val / 4
    rw [i0]; omega
  · show win0_2.index t 1 * 8 + 1 * ((y : S1x8x128.Idx) 1).val = ((y : S1x8x128.Idx) 1).val
    rw [i1]; omega
  · show win0_2.index t 2 * 128 + 1 * ((y : S1x8x128.Idx) 2).val = ((y : S1x8x128.Idx) 2).val
    rw [i2]; omega
/-- Every entry of batch row `b` lies in the block of the row's last point. -/
theorem mem_blk (b : Fin 8) (ρ : Fin 8) (l : Fin 128) (t : Fin cfg0.N) (ht : t.val = 4 * b.val + 3) :
    (ix3 b ρ l : S8x8x128.Idx) ∈ ((cfg0.win 2).blk t).view.set := by
  obtain ⟨i0, i1, i2⟩ := idx2 t
  have hb := b.isLt
  show _ ∈ ((View.whole main_v0).slice (win0_2.rect t)).set
  rw [View.set_slice_whole, Rect.mem_set_unit]
  intro a
  match a with
  | ⟨0, _⟩ =>
    show win0_2.index t 0 * 1 ≤ b.val ∧ b.val < win0_2.index t 0 * 1 + 1
    rw [i0]; omega
  | ⟨1, _⟩ =>
    show win0_2.index t 1 * 8 ≤ ρ.val ∧ ρ.val < win0_2.index t 1 * 8 + 8
    rw [i1]; have := ρ.isLt; omega
  | ⟨2, _⟩ =>
    show win0_2.index t 2 * 128 ≤ l.val ∧ l.val < win0_2.index t 2 * 128 + 128
    rw [i2]; have := l.isLt; omega

/-- So after the region entry `(b, ρ, l)` of the array is entry `(0, ρ, l)` of the output block after point `4 b + 3`. -/
theorem arr_apply (c : Dev nD) (b : Fin 8) (ρ : Fin 8) (l : Fin 128)
    (hN : 4 * b.val + 3 < cfg0.N) :
    (dats m 0 c).arrAt 2 cfg0.N (ix3 b ρ l) = outsAt0 m c (4 * b.val + 3) hN (ix3 0 ρ l) :=
  (dats m 0 c).arrAt_apply_of_mem 2 (wholeArr m c) (flushed_eq m c) cfg0.N ⟨4 * b.val + 3, hN⟩ (ix3 b ρ l) hN
    ((flush0_2 ⟨4 * b.val + 3, hN⟩).mpr (by show (4 * b.val + 3) % 4 = 3; omega))
    (mem_blk b ρ l ⟨4 * b.val + 3, hN⟩ rfl)

/-- Row 0 of batch row `b`, lane `cl`: the sum over the row's pixels of class `cl` of their negative log-likelihoods. -/
theorem arr_row0 (c : Dev nD) (k : Fin 8 → Fin 512 → Fin 1024 → Fin 19)
    (hk : ∀ b h w, m ((c.tc : Thread nD τ).loc main_arg1) (ix3 b h w) = BitVec.ofNat 32 (k b h w).val)
    (b : Fin 8) (cl : Fin 19) :
    (dats m 0 c).arrAt 2 cfg0.N (ix3 b 0 (Cert.WCE.lane cl))
      = ∑ h : Fin 512, ∑ w : Fin 1024, if k b h w = cl then Cert.WCE.nll (xOf m c) k b h w else 0 := by
  have hb := b.isLt
  have hN : 4 * b.val + 3 < cfg0.N := by rw [show cfg0.N = 32 from N_0]; omega
  have e1 : (4 * b.val + 3) % 4 = 3 := by omega
  have e2 : bFin (4 * b.val + 3) = b := Fin.ext (by show ((4 * b.val + 3) / 4) % 8 = b.val; omega)
  refine (arr_apply m c b 0 (Cert.WCE.lane cl) hN).trans ?_
  refine (inv_gen m c 0 (Cert.WCE.lane cl)
    (fun b h w => if k b h w = cl then Cert.WCE.nll (xOf m c) k b h w else 0) (step0 m c k hk cl) (4 * b.val + 3) hN).trans ?_
  rw [e1, e2, partSum_three]

/-- Row 1 of batch row `b`, lane `cl`: the number of the row's pixels of class `cl`. -/
theorem arr_row1 (c : Dev nD) (k : Fin 8 → Fin 512 → Fin 1024 → Fin 19)
    (hk : ∀ b h w, m ((c.tc : Thread nD τ).loc main_arg1) (ix3 b h w) = BitVec.ofNat 32 (k b h w).val)
    (b : Fin 8) (cl : Fin 19) :
    (dats m 0 c).arrAt 2 cfg0.N (ix3 b 1 (Cert.WCE.lane cl))
      = ∑ h : Fin 512, ∑ w : Fin 1024, if k b h w = cl then (1 : EReal) else 0 := by
  have hb := b.isLt
  have hN : 4 * b.val + 3 < cfg0.N := by rw [show cfg0.N = 32 from N_0]; omega
  have e1 : (4 * b.val + 3) % 4 = 3 := by omega
  have e2 : bFin (4 * b.val + 3) = b := Fin.ext (by show ((4 * b.val + 3) / 4) % 8 = b.val; omega)
  refine (arr_apply m c b 1 (Cert.WCE.lane cl) hN).trans ?_
  refine (inv_gen m c 1 (Cert.WCE.lane cl)
    (fun b h w => if k b h w = cl then (1 : EReal) else 0) (step1 m c k hk cl) (4 * b.val + 3) hN).trans ?_
  rw [e1, e2, partSum_three]

end Cert.KernelIdeal.Accum

end
-- ==== Proof.KTail.lean ====
/-
  The kernel program's run, read: its result is the class-balanced mean in the per-class arrangement.

  After the region the program holds an array A of shape [8, 8, 128]: for each batch row b, row 0 carries in lane c
  the sum of the negative log-likelihoods of the row's pixels of class c, and row 1 the number of those pixels.
  The lines after the region cut rows 0 and 1 down to the 19 class lanes, sum each over the eight batch rows
  (giving S c and N c), form the weight of each class from N c, and divide the weighted sum of the S c by the
  weighted sum of the N c. Here those lines are gathered into one function of A, that function is read index by
  index, and the run's final memory is read through it.
-/
import proofs.«425224_j89575837925692_2_alg».proof.Proof.KAccum
import proofs.«425224_j89575837925692_2_alg».proof.Proof.LibTRefCast
import Idealize.ShloMosaic.Lib.StableHlo.Run
import Idealize.ShloMosaic.Lib.IdealHost
import Idealize.ShloMosaic.Lib.ValueIdxRank1
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen

/-! ## The lines after the region as functions of the array -/

/-- Row o of every batch row, cut to the 19 class lanes, flattened to [8, 19] and summed over the eight batch rows
    from zero: one entry per class. -/
def classSums (o : Nat) (hs : S8x8x128.Slices ![0, o, 0] S8x1x19) (A : FVec Ideal S8x8x128 .f32) : FVec Ideal S19 .f32 :=
  Host.reduceAdd (shapeCast S8x19 (extractStridedSlice S8x1x19 ![0, o, 0] A hs) shapeCasts_S8x1x19_S8x19)
    (constant (F := Ideal) S_ .f32 0x00000000#32) reducesTo_S8x19_S19_d0 h_S_

/-- At class cl that sum is zero plus the sum over the batch rows b of the array at (b, r, lane cl), where r is row o.
    The cut reads (b, 0, cl) of the slice at (b, o, cl) of the array; the flattening reads (b, cl) at (b, 0, cl), the same
    row-major position; the reduction over axis 0 at cl runs over the eight (b, cl). -/
theorem classSums_apply (o : Nat) (hs : S8x8x128.Slices ![0, o, 0] S8x1x19) (A : FVec Ideal S8x8x128 .f32)
    (r : Fin 8) (hr : r.val = o) (cl : Fin 19) :
    classSums o hs A (ix1 cl) = 0 + ∑ b : Fin 8, A (ix3 b r (Cert.WCE.lane cl)) := by
  have hR : S8x19.Reduces [0] S19 := by decide
  unfold classSums
  rw [hostReduceAdd_apply, Ideal.hostReduceAdd_single _ hR, constant_apply, Ideal.ofBits_zero_f32]
  refine congrArg (0 + ·) (Finset.sum_congr rfl fun b _ => ?_)
  refine (shapeCast_apply _ _ _ (ix3 b 0 cl) ?_).trans ?_
  · rw [Shape.rowMajor_val_three, Shape.rowMajor_val_two]
    show (b.val * 1 + 0) * 19 + cl.val = b.val * 19 + cl.val
    omega
  · exact extractStridedSlice_apply _ _ _ _ (ix3 b r (Cert.WCE.lane cl)) (fun a => match a with
      | ⟨0, _⟩ => (Nat.zero_add _).symm
      | ⟨1, _⟩ => hr.trans (Nat.add_zero _).symm
      | ⟨2, _⟩ => (Nat.zero_add _).symm)

/-- A scalar constant spread over the 19 classes reads, at every class, the extended real its word encodes. -/
theorem splat_apply (w : BitVec 32) (i : S19.Idx) :
    broadcastInDim S19 ![] bcast_S_S19 (constant (F := Ideal) S_ .f32 w) i = Ideal.ofBits .f32 w :=
  broadcastInDim_scalar_apply bcast_S_S19 _ i

/-- The weights of the classes from their pixel counts n: where n > 0 the quotient 1 / max n 1, elsewhere 1. -/
def weights (n : FVec Ideal S19 .f32) : FVec Ideal S19 .f32 :=
  select (cmpf .ogt n (broadcastInDim S19 ![] bcast_S_S19 (constant (F := Ideal) S_ .f32 0x00000000#32)))
    (Host.divf (broadcastInDim S19 ![] bcast_S_S19 (constant (F := Ideal) S_ .f32 0x3F800000#32))
      (maximumf n (broadcastInDim S19 ![] bcast_S_S19 (constant (F := Ideal) S_ .f32 0x3F800000#32))))
    (broadcastInDim S19 ![] bcast_S_S19 (id (constant (F := Ideal) S_ .f32 0x3F800000#32)))

/-- At each class the weight is the weight of that class's count: every operation is pointwise, and the two words are
    the extended reals 0 and 1. -/
theorem weights_apply (n : FVec Ideal S19 .f32) (i : S19.Idx) : weights n i = Cert.WCE.wt (n i) := by
  have e0 : broadcastInDim S19 ![] bcast_S_S19 (constant (F := Ideal) S_ .f32 0x00000000#32) i = 0 :=
    (splat_apply _ i).trans Ideal.ofBits_zero_f32
  have e1 : broadcastInDim S19 ![] bcast_S_S19 (constant (F := Ideal) S_ .f32 0x3F800000#32) i = 1 :=
    (splat_apply _ i).trans Ideal.ofBits_one_f32
  unfold weights Cert.WCE.wt
  rw [select_apply, cmpf_apply, hostDivf_apply, maximumf_apply]
  simp only [id]
  rw [e0, e1]
  rfl

/-- The sum over the classes, from zero, of the products of two per-class vectors. -/
def wsum (w v : FVec Ideal S19 .f32) : FVec Ideal S_ .f32 :=
  Host.reduceAdd (mulf w v) (constant (F := Ideal) S_ .f32 0x00000000#32) reducesTo_S19_S_d0 h_S_

/-- It is zero plus the sum over the 19 classes of the products: the reduction runs over every index of the vector,
    and those are the classes. -/
theorem wsum_apply (w v : FVec Ideal S19 .f32) (i : S_.Idx) : wsum w v i = 0 + ∑ c : Fin 19, w (ix1 c) * v (ix1 c) := by
  unfold wsum
  rw [hostReduceAdd_apply, Ideal.hostReduceAdd_total _ (fun b => b.elim0), constant_apply, Ideal.ofBits_zero_f32,
    ← Equiv.sum_comp (idxEquiv1 (n := 19)).symm]
  rfl

/-- The lines after the region, as one function of the array: the weighted sum of the row-0 sums over the weighted sum
    of the row-1 sums, the weights taken from the row-1 sums. -/
def tailOf (A : FVec Ideal S8x8x128 .f32) : FVec Ideal S_ .f32 :=
  Host.divf
    (wsum (weights (classSums 1 slices_S8x8x128_S8x1x19_0_1_0 A)) (classSums 0 slices_S8x8x128_S8x1x19_0_0_0 A))
    (wsum (weights (classSums 1 slices_S8x8x128_S8x1x19_0_1_0 A)) (classSums 1 slices_S8x8x128_S8x1x19_0_1_0 A))

/-- For an array whose rows 0 and 1 hold, per batch row and class lane, the row's sum of negative log-likelihoods and
    its pixel count of that class, the lines compute the class-balanced mean: summed over the batch rows the two rows give
    S c and N c, and the quotient of the two weighted sums is the per-class arrangement. -/
theorem tailOf_eq (A : FVec Ideal S8x8x128 .f32) (x : Fin 8 → Fin 19 → Fin 512 → Fin 1024 → EReal)
    (k : Fin 8 → Fin 512 → Fin 1024 → Fin 19)
    (h0 : ∀ (b : Fin 8) (cl : Fin 19), A (ix3 b 0 (Cert.WCE.lane cl))
      = ∑ h : Fin 512, ∑ w : Fin 1024, if k b h w = cl then Cert.WCE.nll x k b h w else 0)
    (h1 : ∀ (b : Fin 8) (cl : Fin 19), A (ix3 b 1 (Cert.WCE.lane cl))
      = ∑ h : Fin 512, ∑ w : Fin 1024, if k b h w = cl then (1 : EReal) else 0) :
    tailOf A = fun _ => Cert.WCE.result x k := by
  funext i
  have hS : ∀ cl : Fin 19, classSums 0 slices_S8x8x128_S8x1x19_0_0_0 A (ix1 cl) = Cert.WCE.S x k cl := fun cl => by
    rw [classSums_apply 0 _ A 0 rfl cl, zero_add]
    unfold Cert.WCE.S
    exact Finset.sum_congr rfl fun b _ => h0 b cl
  have hN : ∀ cl : Fin 19, classSums 1 slices_S8x8x128_S8x1x19_0_1_0 A (ix1 cl) = Cert.WCE.N k cl := fun cl => by
    rw [classSums_apply 1 _ A 1 rfl cl, zero_add]
    unfold Cert.WCE.N
    exact Finset.sum_congr rfl fun b _ => h1 b cl
  unfold tailOf Cert.WCE.result
  rw [hostDivf_apply, wsum_apply, wsum_apply, zero_add, zero_add]
  simp only [weights_apply, hS, hN]

/-! ## The final memory read through that function -/

set_option maxHeartbeats 1600000 in
/-- From any contents W of the buffers, the lines after the region leave in the result buffer that function of what W
    holds in the region's output array: each line's result is its operation applied to its operands' contents, every
    other buffer is kept, and a value passed into and out of the called function is itself. -/
theorem after_tail (W : Valuation τ sig (Elt Ideal)) :
    StableHlo.after (List.flatten [hostOps1, hostOps1_1, hostOps1_2]) W (Proc.devRef .tc main_v18)
      = tailOf (W (Proc.devRef .tc main_v0)) := by
  simp only [hostOps1, hostOps1_1, hostOps1_2, List.flatten_cons, List.flatten_nil, List.append_nil, List.cons_append,
    List.nil_append]
  after_results
  simp only [StableHlo.TRef.ofBuf_toBuf]
  rfl

/-- So after the region and its lines the result buffer holds that function of the output array as the region leaves it. -/
theorem tail_value (m : (ℓ : Loc nD τ sig) → Buf (Elt Ideal) ℓ) (c : Dev nD) :
    Pipeline.afterTail₀ cfgs (dats m) 0 (V0 m) [hostOps1, hostOps1_1, hostOps1_2] c main_v18
      = tailOf ((dats m 0 c).arrAt 2 cfg0.N) :=
  (after_tail _).trans (congrArg tailOf (Pipeline.withArrays_arr spec0 launch0.win.arr_inj c _ _ 2))

/-- Every weakly fair execution of the kernel program ends with its result at the class-balanced mean of the
    argument arrays (per-class arrangement), the arguments unchanged — when every class word is the word of a class. -/
theorem run (m : (ℓ : Loc nD τ sig) → Buf (Elt Ideal) ℓ) (ρ : Dev nD → PrngReg)
    (k : Fin 8 → Fin 512 → Fin 1024 → Fin 19)
    (hk : ∀ (c : Dev nD) b h w, m ((c.tc : Thread nD τ).loc main_arg1) (ix3 b h w) = BitVec.ofNat 32 (k b h w).val) :
    θ_run defs (onTc (τ := τ) (main (F := Ideal))) ⟨m, fun _ => 0, ρ⟩ (fun r => ∀ c : Dev nD,
      r.2.mem ((c.tc : Thread nD τ).loc main_v18) = (fun _ => Cert.WCE.result (Accum.xOf m c) k)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have hmem : main_v18 ∈ Pipeline.restRefs sig (cfgs 0).spec :=
    Pipeline.mem_restRefs_of main_v18 rfl (fun w => by fin_cases w <;> decide)
  refine (θ_run defs _ _).mono (fun r h c => ⟨?_, ?_, ?_⟩) (run_main m ρ)
  · rw [(h c).2 main_v18 hmem, tail_value m c]
    exact tailOf_eq _ (Accum.xOf m c) k (Accum.arr_row0 m c k (hk c)) (Accum.arr_row1 m c k (hk c))
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.KernelIdeal.Tail

end
-- ==== Proof.PreRange.lean ====
/-
  What the precondition says of the class words: each is at least 0 and below 19 (read signed), hence the word of
  one of the nineteen classes. The finiteness of the logits, the precondition's other conjunct, is not used: no step of
  this certificate's algebra needs it.
-/
import proofs.«425224_j89575837925692_2_alg».proof.Pre_finite_inputs
import proofs.«425224_j89575837925692_2_alg».proof.Proof.Algebra
import Idealize.ShloMosaic.Lib.ReduceAll
import Idealize.ShloMosaic.Lib.ValueIdx

noncomputable section

namespace Cert.Pre_finite_inputs.Range

open Idealize.ShloMosaic Idealize.ShloMosaic.ValueIdx Cert.Pre_finite_inputs

variable [Cert.Pre_finite_inputs.Facts] {F : FTy → Type} [FloatOps F]

/-- A rank-0 shape has one index. -/
instance : Subsingleton S_.Idx := ⟨fun a b => funext fun d => d.elim0⟩

/-- Under the precondition every class word lies in `[0, 19)` read signed: the precondition is the conjunction of
    three reductions by `and`, and a reduction by `and` that is 1 met only 1s. -/
theorem range_of_pre (X : FVec F S8x19x512x1024 .f32) (T : IVec S8x512x1024 32)
    (h : fn (F := F) X T = fun _ => 1#1) (i : S8x512x1024.Idx) :
    IntOp.cmpi .sge (T i) 0#32 = 1#1 ∧ IntOp.cmpi .slt (T i) 19#32 = 1#1 := by
  have h0 := congrFun h ix0
  dsimp only [fn] at h0
  obtain ⟨h12, h3⟩ := IntOp.andi_eq_one.1 h0
  obtain ⟨_, h2⟩ := IntOp.andi_eq_one.1 h12
  exact ⟨Host.reduce_andi_all _ _ _ _ ix0 h2 i, Host.reduce_andi_all _ _ _ _ ix0 h3 i⟩

/-- So the class words are the words of a class function. -/
theorem exists_classes (X : FVec F S8x19x512x1024 .f32) (T : IVec S8x512x1024 32)
    (h : fn (F := F) X T = fun _ => 1#1) :
    ∃ k : Fin 8 → Fin 512 → Fin 1024 → Fin 19, ∀ b h w, T (ix3 b h w) = BitVec.ofNat 32 (k b h w).val := by
  have hr := range_of_pre X T h
  choose k hk using fun i => Cert.WCE.exists_class_of_range (T i) (hr i).1 (hr i).2
  exact ⟨fun b h w => k (ix3 b h w), fun b h w => hk _⟩

end Cert.Pre_finite_inputs.Range

end
-- ==== Proof.lean ====
/-
  The certificate of the class-balanced cross-entropy kernel against its jnp reference.

  Both programs take logits `x : f32[8,19,512,1024]` and class words `t : i32[8,512,1024]`, and return one number: the
  mean of the per-pixel negative log-likelihoods `-((x_t - M) - log ∑_c exp (x_c - M))` (`M` the pixel's largest logit),
  each pixel weighted by the inverse frequency of its class. The kernel accumulates, per batch row and class, the
  sum of the negative log-likelihoods and the pixel count (rows 0 and 1 of an [8,128] block, one lane per class), and
  combines the 19 class totals on the host: `(∑_c w_c S_c) / (∑_c w_c N_c)`. The reference weights every pixel:
  `(∑_p w_{t_p} nll_p) / (∑_p w_{t_p})`. Over the extended reals the two are equal because every weight is a
  non-negative real, and such a factor distributes over any sum (`Cert.WCE.resultPix_eq_result`).

  The statement carries one added precondition: every class word lies in `[0, 19)`. Outside it the reference indexes
  its 19-entry tables out of range (negative words wrap, larger ones are dropped or filled), while the kernel clamps.
  Under it the kernel's clamp, the reference's wrap and its range test are all the identity.

  The two kernel frames are the generated ones; the reference's is its run (`Cert.ReferenceIdeal.RunBack.run`) with the result dropped; nothing
  was rewritten by the idealization, so `preserves` is trivial.
-/
import proofs.«425224_j89575837925692_2_alg».proof.Defs
import proofs.«425224_j89575837925692_2_alg».proof.Proof.Gen.Kernel
import proofs.«425224_j89575837925692_2_alg».proof.Proof.Gen.Kernel.Frame
import proofs.«425224_j89575837925692_2_alg».proof.Proof.Gen.KernelIdeal
import proofs.«425224_j89575837925692_2_alg».proof.Proof.Gen.KernelIdeal.Frame
import proofs.«425224_j89575837925692_2_alg».proof.Proof.Gen.ReferenceIdeal
import proofs.«425224_j89575837925692_2_alg».proof.Proof.Gen.Pre_finite_inputs
import proofs.«425224_j89575837925692_2_alg».proof.Proof.RefRead
import proofs.«425224_j89575837925692_2_alg».proof.Proof.RefRunBack
import proofs.«425224_j89575837925692_2_alg».proof.Proof.RefValue
import proofs.«425224_j89575837925692_2_alg».proof.Proof.KTail
import proofs.«425224_j89575837925692_2_alg».proof.Proof.PreRange
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunBack.run (F := Ideal) m ρ)

theorem preserves : Cert.preserves_Kernel_KernelIdeal := trivial

/-- At `Ideal` the kernel program ends at the per-class arrangement of the class-balanced mean and the reference at
    the per-pixel arrangement, of arguments that agree: one number. -/
theorem algebraic : Cert.algebraic_KernelIdeal_ReferenceIdeal := by
  intro m ρ m' ρ' hpre hagree
  obtain ⟨k, hk0⟩ := Cert.Pre_finite_inputs.Range.exists_classes _ _ (hpre 0)
  have hk : ∀ (c : Dev Cert.KernelIdeal.nD) b h w,
      m ((c.tc : Thread Cert.KernelIdeal.nD Cert.KernelIdeal.τ).loc Cert.KernelIdeal.main_arg1) (ix3 b h w)
        = BitVec.ofNat 32 (k b h w).val := by
    intro c
    obtain rfl : c = 0 := Subsingleton.elim _ _
    exact hk0
  refine ⟨fun c _ => Cert.WCE.result (Cert.KernelIdeal.Accum.xOf m c) k, Cert.KernelIdeal.Tail.run m ρ k hk, ?_⟩
  refine (θ_run Cert.ReferenceIdeal.defs _ _).mono (fun _ h c => ⟨(h c).1.trans ?_, (h c).2⟩)
    (Cert.ReferenceIdeal.RunBack.run (F := Ideal) m' ρ')
  rw [Cert.ReferenceIdeal.Read.val_main_v34_eq, (hagree c).1, (hagree c).2,
    Cert.ReferenceIdeal.RefValue.value _ _ k (hk c), Cert.WCE.resultPix_eq_result]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
